-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S_ : Shape := ⟨0, ![]⟩
abbrev S4x8192 : Shape := ⟨2, ![4, 8192]⟩
abbrev S4x512x3 : Shape := ⟨3, ![4, 512, 3]⟩
abbrev S4x512 : Shape := ⟨2, ![4, 512]⟩
abbrev S4x512x1 : Shape := ⟨3, ![4, 512, 1]⟩
abbrev S4x1x512 : Shape := ⟨3, ![4, 1, 512]⟩
abbrev S4x512x512 : Shape := ⟨3, ![4, 512, 512]⟩
abbrev S4 : Shape := ⟨1, ![4]⟩
abbrev S1 : Shape := ⟨1, ![1]⟩

abbrev nBuf : Space → Nat
  | .hbm => 26
  | .vmem => 14
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S_, .f32⟩
  | .hbm, ⟨3, _⟩ => ⟨S4x8192x3, .f32⟩
  | .hbm, ⟨4, _⟩ => ⟨S4x8192x3, .f32⟩
  | .hbm, ⟨5, _⟩ => ⟨S_, .f32⟩
  | .hbm, ⟨6, _⟩ => ⟨S4x8192x3, .f32⟩
  | .hbm, ⟨7, _⟩ => ⟨S4x8192x3, .f32⟩
  | .hbm, ⟨8, _⟩ => ⟨S4x8192, .f32⟩
  | .hbm, ⟨9, _⟩ => ⟨S4x8192, .f32⟩
  | .hbm, ⟨10, _⟩ => ⟨S_, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1, .f32⟩
  | .local _ .vmem, ⟨0, _⟩ => ⟨S4x512x3, .f32⟩
  | .local _ .vmem, ⟨1, _⟩ => ⟨S4x512x3, .f32⟩
  | .local _ .vmem, ⟨2, _⟩ => ⟨S4x512x3, .f32⟩
  | .local _ .vmem, ⟨3, _⟩ => ⟨S4x512x3, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512x3, .f32⟩
  | .local _ .vmem, ⟨8, _⟩ => ⟨S4x512x3, .f32⟩
  | .local _ .vmem, ⟨9, _⟩ => ⟨S4x512x3, .f32⟩
  | .local _ .vmem, ⟨10, _⟩ => ⟨S4x512x3, .f32⟩
  | .local _ .vmem, ⟨11, _⟩ => ⟨S4x512, .f32⟩
  | .local _ .vmem, ⟨12, _⟩ => ⟨S4x512, .f32⟩
  | .local _ .vmem, ⟨13, _⟩ => ⟨S4x512, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v62 : BitVec 1 := Scalar.cmpi .eq arg1 c15_i32
  let v63 : BitVec 32 := Scalar.extui v62
  let c0_i32_12 : BitVec 32 := 0#32
  let v64 : BitVec 1 := Scalar.cmpi .ne v63 c0_i32_12
  v64

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v62 : BitVec 1 := Scalar.cmpi .eq arg1 c15_i32
  let v63 : BitVec 32 := Scalar.extui v62
  let c0_i32_12 : BitVec 32 := 0#32
  let v64 : BitVec 1 := Scalar.cmpi .ne v63 c0_i32_12
  v64

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S_S4x8192x3 : S_.BroadcastsInDim S4x8192x3 (![] : Fin 0 → Fin S4x8192x3.rank)
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x512x3_S4x512x3_0_0_0 : ∀ a, (![0, 0, 0] : Fin 3 → Nat) a + S4x512x3.size a ≤ S4x512x3.size a
  h_S4x512x3 : 0 < S4x512x3.numel
  shapeCasts_S4x512x3_S4x512x3 : S4x512x3.ShapeCasts S4x512x3
  slices_S4x512x3_o0_0_0_S4x512x1 : S4x512x3.Slices ![0, 0, 0] S4x512x1
  shapeCasts_S4x512x1_S4x512 : S4x512x1.ShapeCasts S4x512
  slices_S4x512x3_o0_0_1_S4x512x1 : S4x512x3.Slices ![0, 0, 1] S4x512x1
  slices_S4x512x3_o0_0_2_S4x512x1 : S4x512x3.Slices ![0, 0, 2] S4x512x1
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  reducesTo_S4x8192_S4_d1 : S4x8192.ReducesTo [1] S4
  h_S_ : 0 < S_.numel
  bcast_S_S4 : S_.BroadcastsInDim S4 (![] : Fin 0 → Fin S4.rank)
  reducesTo_S4_S_d0 : S4.ReducesTo [0] S_
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x8192x3.size a
  hwx0_1 : ∀ i : grid0.Coords, EltTy.bits .f32 = 32 ∨ (Rect.block (s := S4x8192x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x3.size a ≤ S4x8192x3.size a
  hwx1_0 : ∀ i : grid1.Coords, EltTy.bits .f32 = 32 ∨ (Rect.block (s := S4x8192x3) S4x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x3.size a ≤ S4x8192x3.size a
  hwx1_1 : ∀ i : grid1.Coords, EltTy.bits .f32 = 32 ∨ (Rect.block (s := S4x8192x3) S4x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x8192.size a
  hwx1_2 : ∀ i : grid1.Coords, EltTy.bits .f32 = 32 ∨ (Rect.block (s := S4x8192) S4x512.size (cc1_transform_2 i) (hinb1_2 i)).WholeWords (EltTy.packing .f32)

variable [Facts₀]

abbrev win0_0 : Pipeline.Window sig grid0 :=
  Pipeline.Window.ofSpec (Memref.whole main_v1) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v3) S4x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S4x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩
abbrev S1 : Shape := ⟨1, ![1]⟩

abbrev nBuf : Space → Nat
  | .hbm => 47
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S_, .f32⟩
  | .hbm, ⟨3, _⟩ => ⟨S4x8192x3, .f32⟩
  | .hbm, ⟨4, _⟩ => ⟨S4x8192x3, .f32⟩
  | .hbm, ⟨5, _⟩ => ⟨S_, .f32⟩
  | .hbm, ⟨6, _⟩ => ⟨S4x8192x3, .f32⟩
  | .hbm, ⟨7, _⟩ => ⟨S4x8192x3, .f32⟩
  | .hbm, ⟨8, _⟩ => ⟨S4x8192x3, .f32⟩
  | .hbm, ⟨9, _⟩ => ⟨S_, .f32⟩
  | .hbm, ⟨10, _⟩ => ⟨S4x8192, .f32⟩
  | .hbm, ⟨11, _⟩ => ⟨S4x8192x3, .f32⟩
  | .hbm, ⟨12, _⟩ => ⟨S_, .f32⟩
  | .hbm, ⟨13, _⟩ => ⟨S4x8192, .f32⟩
  | .hbm, ⟨14, _⟩ => ⟨S4x8192x8192, .f32⟩
  | .hbm, ⟨15, _⟩ => ⟨S4x8192x1, .f32⟩
  | .hbm, ⟨16, _⟩ => ⟨S4x1x8192, .f32⟩
  | .hbm, ⟨17, _⟩ => ⟨S4x8192x8192, .f32⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S4x8192x8192, .f32⟩
  | .hbm, ⟨23, _⟩ => ⟨S4x8192x8192, .f32⟩
  | .hbm, ⟨24, _⟩ => ⟨S_, .f32⟩
  | .hbm, ⟨25, _⟩ => ⟨S4x8192x8192, .f32⟩
  | .hbm, ⟨26, _⟩ => ⟨S4x8192x8192, .f32⟩
  | .hbm, ⟨27, _⟩ => ⟨S_, .f32⟩
  | .hbm, ⟨28, _⟩ => ⟨S4x8192, .f32⟩
  | .hbm, ⟨29, _⟩ => ⟨S_, .f32⟩
  | .hbm, ⟨30, _⟩ => ⟨S4x8192, .f32⟩
  | .hbm, ⟨31, _⟩ => ⟨S_, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S4, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_11 : Ref sig .tc := ⟨.hbm, 42, rfl⟩
abbrev main_v28 : Ref sig .tc := ⟨.hbm, 43, rfl⟩
abbrev main_cst_12 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]

class Facts₀ : Prop where
  bcast_S_S4x8192x3 : S_.BroadcastsInDim S4x8192x3 (![] : Fin 0 → Fin S4x8192x3.rank)
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  reducesTo_S4_S_d0 : S4.ReducesTo [0] S_
  shapeCasts_S_S1 : S_.ShapeCasts S1
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
import Idealize.ShloMosaic.PureOps.Ideal
import Idealize.ShloMosaic.Lib.ValueIdx

/-!
# The nearest-neighbour squared distance, as one function of the two point clouds

Both programs compute, for two clouds `a`, `c` of `8192` points in `ℝ³` per batch element, the squared distance from
each point of one cloud to its nearest neighbour in the other, in the expanded form
`max (‖p‖² + ‖q‖² − 2·⟨p, q⟩) 0` minimised over `q`. Everything here is over the extended reals.
-/

noncomputable section

namespace Cert.Spec

open Idealize.ShloMosaic Idealize.ShloMosaic.ValueIdx

/-- Point clouds: batch × point × coordinate. -/
abbrev SP : Shape := ⟨3, ![4, 8192, 3]⟩
/-- One distance per batch element and point. -/
abbrev SD : Shape := ⟨2, ![4, 8192]⟩

/-- The float words both programs spell, read as extended reals: `2`, `0` and `+∞`. -/
def two : EReal := Ideal.ofBits .f32 0x40000000#32
def zero : EReal := Ideal.ofBits .f32 0x00000000#32
def pinf : EReal := Ideal.ofBits .f32 0x7F800000#32

/-- The squared norm of point `n` of batch element `b`, its three squares added left to right. -/
def nrm (a : SP.Idx → EReal) (b : Fin 4) (n : Fin 8192) : EReal :=
  a (ix3 b n 0) * a (ix3 b n 0) + a (ix3 b n 1) * a (ix3 b n 1) + a (ix3 b n 2) * a (ix3 b n 2)

/-- The inner product of point `n` of `a` with point `m` of `c`, in batch element `b`. -/
def dot (a c : SP.Idx → EReal) (b : Fin 4) (n m : Fin 8192) : EReal :=
  a (ix3 b n 0) * c (ix3 b m 0) + a (ix3 b n 1) * c (ix3 b m 1) + a (ix3 b n 2) * c (ix3 b m 2)

/-- The clamped squared distance between point `n` of `a` and point `m` of `c`. -/
def sqd (a c : SP.Idx → EReal) (b : Fin 4) (n m : Fin 8192) : EReal :=
  max (nrm a b n + nrm c b m - two * dot a c b n m) zero

/-- From each point of `a`, the squared distance to its nearest neighbour in `c`: the minimum over `c`'s points,
    folded from `+∞`. -/
def nnd (a c : SP.Idx → EReal) : SD.Idx → EReal :=
  fun i => (Finset.univ : Finset (Fin 8192)).fold min pinf fun m => sqd a c (i 0) (i 1) m

/-- From each point of `c`, the squared distance to its nearest neighbour in `a`, with the distance still written
    from `a`'s side: the minimum over the FIRST cloud's points. -/
def nnd' (a c : SP.Idx → EReal) : SD.Idx → EReal :=
  fun i => (Finset.univ : Finset (Fin 8192)).fold min pinf fun n => sqd a c (i 0) n (i 1)

/-- The clamped squared distance is symmetric: sums and products of extended reals commute. -/
theorem sqd_comm (a c : SP.Idx → EReal) (b : Fin 4) (n m : Fin 8192) : sqd a c b n m = sqd c a b m n := by
  unfold sqd nrm dot
  rw [add_comm (a (ix3 b n 0) * a (ix3 b n 0) + a (ix3 b n 1) * a (ix3 b n 1) + a (ix3 b n 2) * a (ix3 b n 2)),
    mul_comm (a (ix3 b n 0)) (c (ix3 b m 0)), mul_comm (a (ix3 b n 1)) (c (ix3 b m 1)), mul_comm (a (ix3 b n 2)) (c (ix3 b m 2))]

/-- So minimising over the first cloud is the nearest-neighbour distance with the clouds exchanged. -/
theorem nnd'_eq_nnd (a c : SP.Idx → EReal) : nnd' a c = nnd c a := by
  funext i
  exact congrArg (fun f => (Finset.univ : Finset (Fin 8192)).fold min pinf f) (funext fun n => sqd_comm a c _ n _)

end Cert.Spec

end
-- ==== Proof.RefValue.lean ====
import proofs.«135132_j64836826300486_1_alg».proof.Proof.Spec
import proofs.«135132_j64836826300486_1_alg».proof.Proof.Gen.ReferenceIdeal.Read
import Idealize.ShloMosaic.Lib.ValueIdx
import Idealize.ShloMosaic.Lib.ValueLayout
import Idealize.ShloMosaic.PureOps.Ideal.Laws
import Idealize.ShloMosaic.PureOps.Reduce

/-!
# The reference's two distance arrays are the nearest-neighbour distances, and its result is their shared tail
-/

noncomputable section

namespace Cert.RefValue

open Cert.ReferenceIdeal Cert.ReferenceIdeal.Gen Cert.ReferenceIdeal.Read
open Idealize.ShloMosaic Idealize.ShloMosaic.ValueIdx Cert.Spec

/-- What both programs do with the two distance arrays: each is averaged over its points, the two means are added per
    batch element, and the sum is averaged over the batch, into a one-element array. -/
def tail {F : FTy → Type} [FloatOps F] (d1 d2 : (⟨S4x8192, .f32⟩ : BufTy).Contents (Elt F)) : (⟨S1, .f32⟩ : BufTy).Contents (Elt F) :=
  shapeCast _ (Host.divf (Host.reduceAdd (addf
      (Host.divf (Host.reduceAdd d1 (constant S_ .f32 0x00000000#32) reducesTo_S4x8192_S4_d1 h_S_) (broadcastInDim S4 ![] bcast_S_S4 (constant S_ .f32 0x46000000#32)))
      (Host.divf (Host.reduceAdd d2 (constant S_ .f32 0x00000000#32) reducesTo_S4x8192_S4_d1 h_S_) (broadcastInDim S4 ![] bcast_S_S4 (constant S_ .f32 0x46000000#32))))
    (constant S_ .f32 0x00000000#32) reducesTo_S4_S_d0 h_S_) (constant S_ .f32 0x40800000#32)) shapeCasts_S_S1

/-! ### The squared-distance table at one index -/

/-- The norm of the first cloud's point `n` is read, through the two broadcasts, at `(b, n, k)`. -/
theorem idx_nrm0 (b : Fin 4) (n m : Fin 8192) (k : Fin 3) :
    idx_main_v5 (idx_main_v9 (idx_main_v11 (ix3 b n m))) k = ix3 b n k :=
  funext fun a => Fin.ext (by match a with | ⟨0, _⟩ => rfl | ⟨1, _⟩ => rfl | ⟨2, _⟩ => rfl)

/-- The norm of the second cloud's point `m` is read, through the two broadcasts, at `(b, m, k)`. -/
theorem idx_nrm1 (b : Fin 4) (n m : Fin 8192) (k : Fin 3) :
    idx_main_v7 (idx_main_v10 (idx_main_v12 (ix3 b n m))) k = ix3 b m k :=
  funext fun a => Fin.ext (by match a with | ⟨0, _⟩ => rfl | ⟨1, _⟩ => rfl | ⟨2, _⟩ => rfl)

/-- The inner product's left factor at `(b, n, m)` and contraction index `k` sits at `(b, n, k)`. -/
theorem idx_dotl (b : Fin 4) (n m : Fin 8192) (k : Fin 3) : lidx_main_v8 (ix3 b n m) k = ix3 b n k :=
  funext fun a => Fin.ext (by match a with | ⟨0, _⟩ => rfl | ⟨1, _⟩ => rfl | ⟨2, _⟩ => rfl)

/-- Its right factor sits at `(b, m, k)`. -/
theorem idx_dotr (b : Fin 4) (n m : Fin 8192) (k : Fin 3) : ridx_main_v8 (ix3 b n m) k = ix3 b m k :=
  funext fun a => Fin.ext (by match a with | ⟨0, _⟩ => rfl | ⟨1, _⟩ => rfl | ⟨2, _⟩ => rfl)

/-- The reference's clamped table at `(b, n, m)` is the clamped squared distance of the two scaled points. -/
theorem v18_apply_ix (x0 x1 : (⟨S4x8192x3, .f32⟩ : BufTy).Contents (Elt Ideal)) (b : Fin 4) (n m : Fin 8192) :
    val_main_v18 (F := Ideal) x0 x1 (ix3 b n m) = sqd (val_main_v1 (F := Ideal) x0) (val_main_v3 (F := Ideal) x1) b n m := by
  rw [val_main_v18_apply, val_main_v16_apply, val_main_v13_apply, val_main_v11_apply, val_main_v9_apply, val_main_v5_apply,
    val_main_v12_apply, val_main_v10_apply, val_main_v7_apply, val_main_v15_apply, val_main_v14_apply, val_main_v8_apply,
    val_main_v17_apply, val_main_cst_1_apply, val_main_cst_2_apply, val_main_cst_3_apply, val_main_cst_4_apply]
  simp only [idx_nrm0, idx_nrm1, idx_dotl, idx_dotr, Fin.sum_univ_three, val_main_v4_apply, val_main_v6_apply,
    Ideal.maximumf_def, Ideal.subf_def, Ideal.addf_def, Ideal.mulf_def, Ideal.ofBits_def, Ideal.ofBits_zero_f32, zero_add,
    sqd, nrm, dot, Cert.Spec.two, Cert.Spec.zero]

/-- Over `(b, n)`, inserting the coordinate `k` on the last axis gives `(b, n, k)`. -/
theorem lift_d2 (h : S4x8192x8192.Reduces [2] S4x8192) (b : Fin 4) (n k : Fin 8192) : h.lift (ix2 b n) k = ix3 b n k :=
  funext fun a => Fin.ext (by match a with | ⟨0, _⟩ => rfl | ⟨1, _⟩ => rfl | ⟨2, _⟩ => rfl)

/-- Over `(b, m)`, inserting the coordinate `k` on the middle axis gives `(b, k, m)`. -/
theorem lift_d1 (h : S4x8192x8192.Reduces [1] S4x8192) (b : Fin 4) (m k : Fin 8192) : h.lift (ix2 b m) k = ix3 b k m :=
  funext fun a => Fin.ext (by match a with | ⟨0, _⟩ => rfl | ⟨1, _⟩ => rfl | ⟨2, _⟩ => rfl)

/-- The reference's result is that tail of its two minimum arrays. -/
theorem v30_eq_tail {F : FTy → Type} [FloatOps F] (x0 x1 : (⟨S4x8192x3, .f32⟩ : BufTy).Contents (Elt F)) :
    val_main_v30 (F := F) x0 x1 = tail (val_main_v19 (F := F) x0 x1) (val_main_v20 (F := F) x0 x1) := by
  unfold val_main_v30 val_main_v29 val_main_v28 val_main_v27 val_main_v26 val_main_v25 val_main_v24 val_main_v23 val_main_v22
    val_main_v21 val_main_cst_7 val_main_cst_8 val_main_cst_9 val_main_cst_10 val_main_cst_11 val_main_cst_12 tail
  rfl

/-- The reference's minimum over the second cloud's points is the nearest-neighbour distance of the scaled clouds. -/
theorem v19_eq (x0 x1 : (⟨S4x8192x3, .f32⟩ : BufTy).Contents (Elt Ideal)) :
    val_main_v19 (F := Ideal) x0 x1 = nnd (val_main_v1 (F := Ideal) x0) (val_main_v3 (F := Ideal) x1) := by
  funext i
  obtain ⟨b, n, rfl⟩ : ∃ (b : Fin 4) (n : Fin 8192), i = ix2 b n := ⟨i 0, i 1, eq_ix2 i⟩
  have hR : S4x8192x8192.Reduces [2] S4x8192 := by decide
  unfold val_main_v19
  rw [Host.reduce_eq_fold_single FloatOps.minimumf _ _ reducesTo_S4x8192x8192_S4x8192_d2 hR h_S_ (ix2 b n)]
  exact congrArg (fun f => (Finset.univ : Finset (Fin 8192)).fold min pinf f)
    (funext fun k => (congrArg (val_main_v18 (F := Ideal) x0 x1) (lift_d2 hR b n k)).trans (v18_apply_ix x0 x1 b n k))

/-- Its minimum over the first cloud's points is the same with the minimum taken over the first cloud. -/
theorem v20_eq (x0 x1 : (⟨S4x8192x3, .f32⟩ : BufTy).Contents (Elt Ideal)) :
    val_main_v20 (F := Ideal) x0 x1 = nnd' (val_main_v1 (F := Ideal) x0) (val_main_v3 (F := Ideal) x1) := by
  funext i
  obtain ⟨b, m, rfl⟩ : ∃ (b : Fin 4) (m : Fin 8192), i = ix2 b m := ⟨i 0, i 1, eq_ix2 i⟩
  have hR : S4x8192x8192.Reduces [1] S4x8192 := by decide
  unfold val_main_v20
  rw [Host.reduce_eq_fold_single FloatOps.minimumf _ _ reducesTo_S4x8192x8192_S4x8192_d1 hR h_S_ (ix2 b m)]
  exact congrArg (fun f => (Finset.univ : Finset (Fin 8192)).fold min pinf f)
    (funext fun k => (congrArg (val_main_v18 (F := Ideal) x0 x1) (lift_d1 hR b m k)).trans (v18_apply_ix x0 x1 b k m))

end Cert.RefValue

end
-- ==== Proof.KB.Common.lean ====
import proofs.«135132_j64836826300486_1_alg».proof.Proof.Gen.Kernel.Launch
import proofs.«135132_j64836826300486_1_alg».proof.Proof.Gen.Kernel.Skeleton
import proofs.«135132_j64836826300486_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The all-zero offsets of a whole-block access, however they are spelt. -/
theorem hz2 : (![0, 0] : Fin S4x512.rank → ℕ) = fun _ => 0 := by funext a; fin_cases a <;> rfl
theorem hz3 : (![0, 0, 0] : Fin S4x512x3.rank → ℕ) = fun _ => 0 := by funext a; fin_cases a <;> rfl

/-- A store through the whole block covers the block, whatever was stored before. -/
theorem cov2 (w : S4x512.Idx → Elt F .f32) (L : List (View.Piece (Elt F) S4x512 .f32)) (y : S4x512.Idx) :
    ∃ p ∈ ((⟨Rect.unit ![0, 0] S4x512.size inb_S4x512_S4x512_0_0, w⟩ : View.Piece (Elt F) S4x512 .f32) :: L), y ∈ p.1.set :=
  ⟨_, List.mem_cons_self, View.mem_set_unit_zero hz2 inb_S4x512_S4x512_0_0 y⟩

end Cert.Kernel.Hand

end
-- ==== Proof.KB.Body0.lean ====
import proofs.«135132_j64836826300486_1_alg».proof.Proof.Gen.Kernel.Launch
import proofs.«135132_j64836826300486_1_alg».proof.Proof.Gen.Kernel.Skeleton
import proofs.«135132_j64836826300486_1_alg».proof.Proof.Gen.Kernel.Points
import proofs.«135132_j64836826300486_1_alg».proof.Proof.KB.Common
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One grid point's update of the running minimum: from the running minimum `acc` of a row block and the
    query block `q` and key block `k`, the new running minimum (the elementwise minimum of `acc` with the
    row-wise minimum over the key block of the clamped squared distances). -/
def step0 (acc : Vec F S4x512 .f32) (q k : Vec F S4x512x3 .f32) : Vec F S4x512 .f32 :=
  k0_pay1 (k0_pay11 q k) (k0_pay12 k) (k0_pay13 q) acc

/-- The first-column condition of the body (`j = 0`), as the kernel computes it. -/
abbrev cond0_0 (i : grid0.Coords) : Prop := (Scalar.cmpi .ne (Scalar.extui (Scalar.cmpi .eq (BitVec.ofNat 32 (i 1).val) 0#32)) 0#32) = 1#1
/-- The last-column condition of the body (`j = 15`). -/
abbrev cond0_1 (i : grid0.Coords) : Prop := k0_cond2 i = 1#1

set_option maxHeartbeats 2000000 in
/-- A middle column (neither first nor last): the running minimum is updated in place, the output buffer untouched. -/
theorem body0_mid (c : Dev nD) (E : Set ℕ) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4x512 .f32) (harg4 : arg4.IsWhole) (arg5 : Memref sig .tc .vmem S4x512 .f32) (harg5 : arg5.IsWhole)
    (hc0 : ¬cond0_0 i) (hc1 : ¬cond0_1 i)
    (x0 x1 : Vec F S4x512x3 .f32) (d s : Vec F S4x512 .f32) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare s
        ∗ (iprop(owns (c : Thread nD τ) arg2 fullShare x0 ∗ owns (c : Thread nD τ) arg3 fullShare x1
            ∗ owns (c : Thread nD τ) arg4 fullShare (d) ∗ owns (c : Thread nD τ) arg5 fullShare (step0 (s) x0 x1)) -∗ K ⟨⟩))
      ⊢ wp frame (wpE (defs₀ (F := F)) Variants.none c none) E (cc0__nn_min_kernel i arg2 harg2 arg3 harg3 arg4 harg4 arg5 harg5) K := by
  simp only [cc0__nn_min_kernel_eq_skeleton]; unfold cc0__nn_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact H3
  ipureintro
  sl_unfold_words
  rw [View.read_writes_eq_canon _ _ _ (cov2 _ _), View.canon_unit_zero hz2]
  simp only [View.readAt_eq_ld, harg2.read_unread, harg3.read_unread, harg5.read_unread, View.ld_unit_zero (S := S4x512) hz2, View.ld_unit_zero (S := S4x512x3) hz3, View.readCov_unit_zero (S := S4x512) _ hz2]
  rfl

set_option maxHeartbeats 2000000 in
/-- A first column: the running minimum restarts from the all-`+∞` block, the output buffer untouched. -/
theorem body0_first (c : Dev nD) (E : Set ℕ) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4x512 .f32) (harg4 : arg4.IsWhole) (arg5 : Memref sig .tc .vmem S4x512 .f32) (harg5 : arg5.IsWhole)
    (hc0 : cond0_0 i) (hc1 : ¬cond0_1 i)
    (x0 x1 : Vec F S4x512x3 .f32) (d s : Vec F S4x512 .f32) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare s
        ∗ (iprop(owns (c : Thread nD τ) arg2 fullShare x0 ∗ owns (c : Thread nD τ) arg3 fullShare x1
            ∗ owns (c : Thread nD τ) arg4 fullShare (d) ∗ owns (c : Thread nD τ) arg5 fullShare (step0 (k0_pay2) x0 x1)) -∗ K ⟨⟩))
      ⊢ wp frame (wpE (defs₀ (F := F)) Variants.none c none) E (cc0__nn_min_kernel i arg2 harg2 arg3 harg3 arg4 harg4 arg5 harg5) K := by
  simp only [cc0__nn_min_kernel_eq_skeleton]; unfold cc0__nn_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact H3
  ipureintro
  sl_unfold_words
  rw [View.read_writes_eq_canon _ _ _ (cov2 _ _), View.canon_cons_unit_zero hz2]
  simp only [View.readAt_eq_ld, harg2.read_unread, harg3.read_unread, harg5.read_unread, View.ld_unit_zero (S := S4x512) hz2, View.ld_unit_zero (S := S4x512x3) hz3, View.readCov_unit_zero (S := S4x512) _ hz2]
  rfl

set_option maxHeartbeats 2000000 in
/-- A last column: the running minimum is updated, and the output buffer receives it. -/
theorem body0_last (c : Dev nD) (E : Set ℕ) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4x512 .f32) (harg4 : arg4.IsWhole) (arg5 : Memref sig .tc .vmem S4x512 .f32) (harg5 : arg5.IsWhole)
    (hc0 : ¬cond0_0 i) (hc1 : cond0_1 i)
    (x0 x1 : Vec F S4x512x3 .f32) (d s : Vec F S4x512 .f32) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare s
        ∗ (iprop(owns (c : Thread nD τ) arg2 fullShare x0 ∗ owns (c : Thread nD τ) arg3 fullShare x1
            ∗ owns (c : Thread nD τ) arg4 fullShare (step0 s x0 x1) ∗ owns (c : Thread nD τ) arg5 fullShare (step0 (s) x0 x1)) -∗ K ⟨⟩))
      ⊢ wp frame (wpE (defs₀ (F := F)) Variants.none c none) E (cc0__nn_min_kernel i arg2 harg2 arg3 harg3 arg4 harg4 arg5 harg5) K := by
  simp only [cc0__nn_min_kernel_eq_skeleton]; unfold cc0__nn_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (cov2 _ _), View.canon_unit_zero hz2]
    simp only [View.readAt_eq_ld, harg2.read_unread, harg3.read_unread, harg5.read_unread, View.ld_unit_zero (S := S4x512) hz2, View.ld_unit_zero (S := S4x512x3) hz3, View.readCov_unit_zero (S := S4x512) _ hz2]
    rfl
  iexists _; isplitr
  swap; · iexact H3
  ipureintro
  sl_unfold_words
  rw [View.read_writes_eq_canon _ _ _ (cov2 _ _), View.canon_unit_zero hz2]
  simp only [View.readAt_eq_ld, harg2.read_unread, harg3.read_unread, harg5.read_unread, View.ld_unit_zero (S := S4x512) hz2, View.ld_unit_zero (S := S4x512x3) hz3, View.readCov_unit_zero (S := S4x512) _ hz2]
  rfl

end Cert.Kernel.Hand

end
-- ==== Proof.KB.Dat0.lean ====
import proofs.«135132_j64836826300486_1_alg».proof.Proof.Gen.Kernel.Launch
import proofs.«135132_j64836826300486_1_alg».proof.Proof.Gen.Kernel.Skeleton
import proofs.«135132_j64836826300486_1_alg».proof.Proof.Gen.Kernel.Points
import proofs.«135132_j64836826300486_1_alg».proof.Proof.KB.Body0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered: a parameter, instantiated by the run
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query block (rows `512·i … 512·i + 511` of the first operand) and the key block (rows `512·j …` of the
    second) of point `t = 16·i + j`, at their literal type. -/
abbrev qblk0 (c : Dev nD) (t : Fin cfg0.N) : Vec F S4x512x3 .f32 := iblk0 V c 0 t
abbrev kblk0 (c : Dev nD) (t : Fin cfg0.N) : Vec F S4x512x3 .f32 := iblk0 V c 1 t

/-- An input window's current staging buffer holds its block at every point, fetched there or not: unfetched, the
    block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The conditions over the grid, and where the output window is idle -/

/-- The first-column condition holds at the points `≡ 0 (mod 16)`. -/
theorem hcond0_0 : ∀ t : Fin cfg0.N, cond0_0 (grid0.coords t) ↔ t.val % 16 = 0 :=
  (by decide +kernel : ∀ t : Fin grid0.N, cond0_0 (grid0.coords t) ↔ t.val % 16 = 0)
/-- The last-column condition holds at the points `≡ 15 (mod 16)`. -/
theorem hcond0_1 : ∀ t : Fin cfg0.N, cond0_1 (grid0.coords t) ↔ t.val % 16 = 15 :=
  (by decide +kernel : ∀ t : Fin grid0.N, cond0_1 (grid0.coords t) ↔ t.val % 16 = 15)
/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- The output window is idle exactly off the last column, and there it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The running minimum, point by point -/

/-- The scratch operand: a whole scoped buffer of the kernel's own. -/
abbrev scM0 : Memref sig .tc .vmem S4x512 .f32 := Memref.whole cc0_scratch0

/-- What the scratch holds after the body at position `n`: at a first column the update of the all-`+∞` block,
    elsewhere the update of what the point before left, by that point's query and key blocks. -/
def accAt0 (c : Dev nD) : (n : ℕ) → n < cfg0.N → Vec F S4x512 .f32
  | 0, hn => step0 k0_pay2 (qblk0 V c ⟨0, hn⟩) (kblk0 V c ⟨0, hn⟩)
  | n + 1, hn =>
    if (n + 1) % 16 = 0 then step0 k0_pay2 (qblk0 V c ⟨n + 1, hn⟩) (kblk0 V c ⟨n + 1, hn⟩)
    else step0 (accAt0 c n (Nat.lt_of_succ_lt hn)) (qblk0 V c ⟨n + 1, hn⟩) (kblk0 V c ⟨n + 1, hn⟩)

/-- At a first column the running minimum restarts. -/
theorem accAt0_first (c : Dev nD) (t : Fin cfg0.N) (h0 : t.val % 16 = 0) :
    accAt0 V c t.val t.isLt = step0 k0_pay2 (qblk0 V c t) (kblk0 V c t) := by
  obtain ⟨n, hn⟩ := t
  cases n with
  | zero => rfl
  | succ n => exact if_pos h0

/-- Elsewhere it updates what the point before left. -/
theorem accAt0_next (c : Dev nD) (t : Fin cfg0.N) (h0 : ¬t.val % 16 = 0) :
    accAt0 V c t.val t.isLt = step0 (accAt0 V c (t.val - 1) (Nat.lt_of_le_of_lt (Nat.sub_le _ _) t.isLt)) (qblk0 V c t) (kblk0 V c t) := by
  obtain ⟨n, hn⟩ := t
  cases n with
  | zero => exact absurd (Nat.zero_mod _) h0
  | succ n => exact if_neg h0

/-! ## The region invariant -/

-- BEGIN region-specific
/-- The core's scoped buffers that are neither a staging buffer of this call nor its scratch, at some contents each. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the scratch split off, as a memref owned at some contents. -/
theorem PhiA0_open (c : Dev nD) :
    (Pipeline.ΦA spec0 c : sProp 𝕄)
      ⊢ iprop((∃ d, owns (c : Thread nD τ) scM0 fullShare d) ∗ restS0 (F := F) c ∗ (∃ r, prngReg c r)) := by
  unfold Pipeline.ΦA restS0; rw [scopedRest0_eq]; simp only [scM0, owns_whole]
  iintro ⟨⟨H0, Hr⟩, Hp⟩
  isplitl [H0]; · iexact H0
  isplitl [Hr]; · iexact Hr
  iexact Hp
/-- And put back. -/
theorem PhiA0_close (c : Dev nD) :
    iprop((∃ d, owns (c : Thread nD τ) scM0 fullShare d) ∗ restS0 (F := F) c ∗ (∃ r, prngReg c r))
      ⊢ (Pipeline.ΦA spec0 c : sProp 𝕄) := by
  unfold Pipeline.ΦA restS0; rw [scopedRest0_eq]; simp only [scM0, owns_whole]
  iintro ⟨H0, Hr, Hp⟩
  isplitr [Hp]
  · isplitl [H0]; · iexact H0
    iexact Hr
  iexact Hp

-- END region-specific
/-- The region invariant before position `n`: before the first point the class's (the scratch at anything);
    afterwards the scratch at what the point before left in it, the other scoped buffers at anything, and the
    generator register at some state. -/
def PhiS0 (c : Dev nD) : (n : ℕ) → n ≤ cfg0.N → sProp 𝕄
  | 0, _ => Pipeline.ΦA spec0 c
  | n + 1, hn => iprop(owns (c : Thread nD τ) scM0 fullShare (accAt0 V c n hn) ∗ restS0 (F := F) c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare (accAt0 V c n hn) ∗ restS0 (F := F) c ∗ (∃ r, prngReg c r)) := rfl
theorem PhiS0_pos (c : Dev nD) (n : ℕ) (h : n ≤ cfg0.N) (hz : n ≠ 0) :
    PhiS0 V c n h = iprop(owns (c : Thread nD τ) scM0 fullShare (accAt0 V c (n - 1) (by omega)) ∗ restS0 (F := F) c ∗ (∃ r, prngReg c r)) := by
  cases n with
  | zero => exact absurd rfl hz
  | succ n => rfl

/-! ## The pipeline's proof data -/

/-- The proof data of this call on core `c`: the arrays as the region finds them; after the body at point `t` each
    input's buffer at its block and the output's at the running minimum (consulted at the last columns only, where the
    body stores it); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: the inputs' buffers hold their blocks; the column decides the case; the invariant hands the
    body the scratch at what the point before left (at anything before the first point) and takes it back at this
    point's running minimum; off the last column the output buffer goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 256 := lt_of_lt_of_eq t.isLt (show cfg0.N = 256 from N_0)
  by_cases h1 : t.val % 16 = 15
  · -- a last column
    have h0 : ¬t.val % 16 = 0 := by omega
    have hz : t.val ≠ 0 := by omega
    rw [show (dat0 V c).leavesExact 2 t = owns (c : Thread nD τ) (st0_2 t) fullShare ((dat0 V c).after 2 t) from by
      unfold Dat.leavesExact; rw [liveAt0_2 t ((hcond0_1 t).mpr h1)], after0_2]
    rw [accAt0_next V c t h0, PhiS0_castSucc V c t, PhiS0_pos V c _ _ hz]
    iintro ⟨⟨HS, Hr, Hg⟩, Ho, ⟨%d0, H0⟩, ⟨%d1, H1⟩, ⟨%d2, H2⟩⟩
    iapply (body0_last c Set.univ (grid0.coords t) _ _ _ _ _ _ scM0 (Memref.isWhole_whole _) (fun h => h0 ((hcond0_0 t).mp h)) ((hcond0_1 t).mpr h1) (qblk0 V c t) (kblk0 V c t) _ _ _)
    isplitl [H0]; · iexact H0
    isplitl [H1]; · iexact H1
    isplitl [H2]; · iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · rw [Dat.leavesExact_idle (dat0 V c) 2 t (idleAt0_2 t (fun h => h1 ((hcond0_1 t).mp h))) (noFlush0_2 t (fun h => h1 ((hcond0_1 t).mp h)))]
    by_cases h0 : t.val % 16 = 0
    · -- a first column
      rw [accAt0_first V c t h0]
      by_cases hz : t.val = 0
      · rw [PhiS0_castSucc V c t, PhiS0_zero V c _ _ hz]
        iintro ⟨HΦ, Ho, ⟨%d0, H0⟩, ⟨%d1, H1⟩, ⟨%d2, H2⟩⟩
        ihave HΦ' := (PhiA0_open (F := F) c) $$ HΦ
        icases HΦ' with ⟨⟨%s, HS⟩, Hr, Hg⟩
        iapply (body0_first c Set.univ (grid0.coords t) _ _ _ _ _ _ scM0 (Memref.isWhole_whole _) ((hcond0_0 t).mpr h0) (fun h => h1 ((hcond0_1 t).mp h)) (qblk0 V c t) (kblk0 V c t) _ s _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
      · rw [PhiS0_castSucc V c t, PhiS0_pos V c _ _ hz]
        iintro ⟨⟨HS, Hr, Hg⟩, Ho, ⟨%d0, H0⟩, ⟨%d1, H1⟩, ⟨%d2, H2⟩⟩
        iapply (body0_first c Set.univ (grid0.coords t) _ _ _ _ _ _ scM0 (Memref.isWhole_whole _) ((hcond0_0 t).mpr h0) (fun h => h1 ((hcond0_1 t).mp h)) (qblk0 V c t) (kblk0 V c t) _ _ _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
    · -- a middle column
      have hz : t.val ≠ 0 := fun h => h0 (by rw [h])
      rw [accAt0_next V c t h0, PhiS0_castSucc V c t, PhiS0_pos V c _ _ hz]
      iintro ⟨⟨HS, Hr, Hg⟩, Ho, ⟨%d0, H0⟩, ⟨%d1, H1⟩, ⟨%d2, H2⟩⟩
      iapply (body0_mid c Set.univ (grid0.coords t) _ _ _ _ _ _ scM0 (Memref.isWhole_whole _) (fun h => h0 ((hcond0_0 t).mp h)) (fun h => h1 ((hcond0_1 t).mp h)) (qblk0 V c t) (kblk0 V c t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 256 := N_0; omega)]
  iintro ⟨HS, Hr, Hg⟩
  iapply (PhiA0_close (F := F) c)
  isplitl [HS]; · iexists _; iexact HS
  isplitl [Hr]; · iexact Hr
  iexact Hg

end Cert.Kernel.Hand

end
-- ==== Proof.KB.Body1.lean ====
import proofs.«135132_j64836826300486_1_alg».proof.Proof.Gen.Kernel.Launch
import proofs.«135132_j64836826300486_1_alg».proof.Proof.Gen.Kernel.Skeleton
import proofs.«135132_j64836826300486_1_alg».proof.Proof.Gen.Kernel.Points
import proofs.«135132_j64836826300486_1_alg».proof.Proof.KB.Common
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One grid point's update of the running minimum: from the running minimum `acc` of a row block and the
    query block `q` and key block `k`, the new running minimum (the elementwise minimum of `acc` with the
    row-wise minimum over the key block of the clamped squared distances). -/
def step1 (acc : Vec F S4x512 .f32) (q k : Vec F S4x512x3 .f32) : Vec F S4x512 .f32 :=
  k1_pay1 (k1_pay11 q k) (k1_pay12 k) (k1_pay13 q) acc

/-- The first-column condition of the body (`j = 0`), as the kernel computes it. -/
abbrev cond1_0 (i : grid1.Coords) : Prop := (Scalar.cmpi .ne (Scalar.extui (Scalar.cmpi .eq (BitVec.ofNat 32 (i 1).val) 0#32)) 0#32) = 1#1
/-- The last-column condition of the body (`j = 15`). -/
abbrev cond1_1 (i : grid1.Coords) : Prop := k1_cond2 i = 1#1

set_option maxHeartbeats 2000000 in
/-- A middle column (neither first nor last): the running minimum is updated in place, the output buffer untouched. -/
theorem body1_mid (c : Dev nD) (E : Set ℕ) (i : grid1.Coords)
    (arg2 : Memref sig .tc .vmem S4x512x3 .f32) (harg2 : arg2.IsWhole) (arg3 : Memref sig .tc .vmem S4x512x3 .f32) (harg3 : arg3.IsWhole)
    (arg4 : Memref sig .tc .vmem S4x512 .f32) (harg4 : arg4.IsWhole) (arg5 : Memref sig .tc .vmem S4x512 .f32) (harg5 : arg5.IsWhole)
    (hc0 : ¬cond1_0 i) (hc1 : ¬cond1_1 i)
    (x0 x1 : Vec F S4x512x3 .f32) (d s : Vec F S4x512 .f32) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare s
        ∗ (iprop(owns (c : Thread nD τ) arg2 fullShare x0 ∗ owns (c : Thread nD τ) arg3 fullShare x1
            ∗ owns (c : Thread nD τ) arg4 fullShare (d) ∗ owns (c : Thread nD τ) arg5 fullShare (step1 (s) x0 x1)) -∗ K ⟨⟩))
      ⊢ wp frame (wpE (defs₀ (F := F)) Variants.none c none) E (cc1__nn_min_kernel i arg2 harg2 arg3 harg3 arg4 harg4 arg5 harg5) K := by
  simp only [cc1__nn_min_kernel_eq_skeleton]; unfold cc1__nn_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact H3
  ipureintro
  sl_unfold_words
  rw [View.read_writes_eq_canon _ _ _ (cov2 _ _), View.canon_unit_zero hz2]
  simp only [View.readAt_eq_ld, harg2.read_unread, harg3.read_unread, harg5.read_unread, View.ld_unit_zero (S := S4x512) hz2, View.ld_unit_zero (S := S4x512x3) hz3, View.readCov_unit_zero (S := S4x512) _ hz2]
  rfl

set_option maxHeartbeats 2000000 in
/-- A first column: the running minimum restarts from the all-`+∞` block, the output buffer untouched. -/
theorem body1_first (c : Dev nD) (E : Set ℕ) (i : grid1.Coords)
    (arg2 : Memref sig .tc .vmem S4x512x3 .f32) (harg2 : arg2.IsWhole) (arg3 : Memref sig .tc .vmem S4x512x3 .f32) (harg3 : arg3.IsWhole)
    (arg4 : Memref sig .tc .vmem S4x512 .f32) (harg4 : arg4.IsWhole) (arg5 : Memref sig .tc .vmem S4x512 .f32) (harg5 : arg5.IsWhole)
    (hc0 : cond1_0 i) (hc1 : ¬cond1_1 i)
    (x0 x1 : Vec F S4x512x3 .f32) (d s : Vec F S4x512 .f32) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare s
        ∗ (iprop(owns (c : Thread nD τ) arg2 fullShare x0 ∗ owns (c : Thread nD τ) arg3 fullShare x1
            ∗ owns (c : Thread nD τ) arg4 fullShare (d) ∗ owns (c : Thread nD τ) arg5 fullShare (step1 (k1_pay2) x0 x1)) -∗ K ⟨⟩))
      ⊢ wp frame (wpE (defs₀ (F := F)) Variants.none c none) E (cc1__nn_min_kernel i arg2 harg2 arg3 harg3 arg4 harg4 arg5 harg5) K := by
  simp only [cc1__nn_min_kernel_eq_skeleton]; unfold cc1__nn_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact H3
  ipureintro
  sl_unfold_words
  rw [View.read_writes_eq_canon _ _ _ (cov2 _ _), View.canon_cons_unit_zero hz2]
  simp only [View.readAt_eq_ld, harg2.read_unread, harg3.read_unread, harg5.read_unread, View.ld_unit_zero (S := S4x512) hz2, View.ld_unit_zero (S := S4x512x3) hz3, View.readCov_unit_zero (S := S4x512) _ hz2]
  rfl

set_option maxHeartbeats 2000000 in
/-- A last column: the running minimum is updated, and the output buffer receives it. -/
theorem body1_last (c : Dev nD) (E : Set ℕ) (i : grid1.Coords)
    (arg2 : Memref sig .tc .vmem S4x512x3 .f32) (harg2 : arg2.IsWhole) (arg3 : Memref sig .tc .vmem S4x512x3 .f32) (harg3 : arg3.IsWhole)
    (arg4 : Memref sig .tc .vmem S4x512 .f32) (harg4 : arg4.IsWhole) (arg5 : Memref sig .tc .vmem S4x512 .f32) (harg5 : arg5.IsWhole)
    (hc0 : ¬cond1_0 i) (hc1 : cond1_1 i)
    (x0 x1 : Vec F S4x512x3 .f32) (d s : Vec F S4x512 .f32) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare s
        ∗ (iprop(owns (c : Thread nD τ) arg2 fullShare x0 ∗ owns (c : Thread nD τ) arg3 fullShare x1
            ∗ owns (c : Thread nD τ) arg4 fullShare (step1 s x0 x1) ∗ owns (c : Thread nD τ) arg5 fullShare (step1 (s) x0 x1)) -∗ K ⟨⟩))
      ⊢ wp frame (wpE (defs₀ (F := F)) Variants.none c none) E (cc1__nn_min_kernel i arg2 harg2 arg3 harg3 arg4 harg4 arg5 harg5) K := by
  simp only [cc1__nn_min_kernel_eq_skeleton]; unfold cc1__nn_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (cov2 _ _), View.canon_unit_zero hz2]
    simp only [View.readAt_eq_ld, harg2.read_unread, harg3.read_unread, harg5.read_unread, View.ld_unit_zero (S := S4x512) hz2, View.ld_unit_zero (S := S4x512x3) hz3, View.readCov_unit_zero (S := S4x512) _ hz2]
    rfl
  iexists _; isplitr
  swap; · iexact H3
  ipureintro
  sl_unfold_words
  rw [View.read_writes_eq_canon _ _ _ (cov2 _ _), View.canon_unit_zero hz2]
  simp only [View.readAt_eq_ld, harg2.read_unread, harg3.read_unread, harg5.read_unread, View.ld_unit_zero (S := S4x512) hz2, View.ld_unit_zero (S := S4x512x3) hz3, View.readCov_unit_zero (S := S4x512) _ hz2]
  rfl

end Cert.Kernel.Hand

end
-- ==== Proof.KB.Dat1.lean ====
import proofs.«135132_j64836826300486_1_alg».proof.Proof.Gen.Kernel.Launch
import proofs.«135132_j64836826300486_1_alg».proof.Proof.Gen.Kernel.Skeleton
import proofs.«135132_j64836826300486_1_alg».proof.Proof.Gen.Kernel.Points
import proofs.«135132_j64836826300486_1_alg».proof.Proof.KB.Body1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered: a parameter, instantiated by the run
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block (rows `512·i … 512·i + 511` of the first operand) and the key block (rows `512·j …` of the
    second) of point `t = 16·i + j`, at their literal type. -/
abbrev qblk1 (c : Dev nD) (t : Fin cfg1.N) : Vec F S4x512x3 .f32 := iblk1 V c 0 t
abbrev kblk1 (c : Dev nD) (t : Fin cfg1.N) : Vec F S4x512x3 .f32 := iblk1 V c 1 t

/-- An input window's current staging buffer holds its block at every point, fetched there or not: unfetched, the
    block index has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The conditions over the grid, and where the output window is idle -/

/-- The first-column condition holds at the points `≡ 0 (mod 16)`. -/
theorem hcond1_0 : ∀ t : Fin cfg1.N, cond1_0 (grid1.coords t) ↔ t.val % 16 = 0 :=
  (by decide +kernel : ∀ t : Fin grid1.N, cond1_0 (grid1.coords t) ↔ t.val % 16 = 0)
/-- The last-column condition holds at the points `≡ 15 (mod 16)`. -/
theorem hcond1_1 : ∀ t : Fin cfg1.N, cond1_1 (grid1.coords t) ↔ t.val % 16 = 15 :=
  (by decide +kernel : ∀ t : Fin grid1.N, cond1_1 (grid1.coords t) ↔ t.val % 16 = 15)
/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- The output window is idle exactly off the last column, and there it is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The running minimum, point by point -/

/-- The scratch operand: a whole scoped buffer of the kernel's own. -/
abbrev scM1 : Memref sig .tc .vmem S4x512 .f32 := Memref.whole cc1_scratch0

/-- What the scratch holds after the body at position `n`: at a first column the update of the all-`+∞` block,
    elsewhere the update of what the point before left, by that point's query and key blocks. -/
def accAt1 (c : Dev nD) : (n : ℕ) → n < cfg1.N → Vec F S4x512 .f32
  | 0, hn => step1 k1_pay2 (qblk1 V c ⟨0, hn⟩) (kblk1 V c ⟨0, hn⟩)
  | n + 1, hn =>
    if (n + 1) % 16 = 0 then step1 k1_pay2 (qblk1 V c ⟨n + 1, hn⟩) (kblk1 V c ⟨n + 1, hn⟩)
    else step1 (accAt1 c n (Nat.lt_of_succ_lt hn)) (qblk1 V c ⟨n + 1, hn⟩) (kblk1 V c ⟨n + 1, hn⟩)

/-- At a first column the running minimum restarts. -/
theorem accAt1_first (c : Dev nD) (t : Fin cfg1.N) (h0 : t.val % 16 = 0) :
    accAt1 V c t.val t.isLt = step1 k1_pay2 (qblk1 V c t) (kblk1 V c t) := by
  obtain ⟨n, hn⟩ := t
  cases n with
  | zero => rfl
  | succ n => exact if_pos h0

/-- Elsewhere it updates what the point before left. -/
theorem accAt1_next (c : Dev nD) (t : Fin cfg1.N) (h0 : ¬t.val % 16 = 0) :
    accAt1 V c t.val t.isLt = step1 (accAt1 V c (t.val - 1) (Nat.lt_of_le_of_lt (Nat.sub_le _ _) t.isLt)) (qblk1 V c t) (kblk1 V c t) := by
  obtain ⟨n, hn⟩ := t
  cases n with
  | zero => exact absurd (Nat.zero_mod _) h0
  | succ n => exact if_neg h0

/-! ## The region invariant -/

-- BEGIN region-specific
/-- The core's scoped buffers that are neither a staging buffer of this call nor its scratch, at some contents each. -/
def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant with the scratch split off, as a memref owned at some contents. -/
theorem PhiA1_open (c : Dev nD) :
    (Pipeline.ΦA spec1 c : sProp 𝕄)
      ⊢ iprop((∃ d, owns (c : Thread nD τ) scM1 fullShare d) ∗ restS1 (F := F) c ∗ (∃ r, prngReg c r)) := by
  unfold Pipeline.ΦA restS1; rw [scopedRest1_eq]; simp only [scM1, owns_whole]
  iintro ⟨⟨H0, H1, H2, H3, H4, H5, H6, H7⟩, Hp⟩
  isplitl [H7]; · iexact H7
  isplitr [Hp]
  · isplitl [H0]; · iexact H0
    isplitl [H1]; · iexact H1
    isplitl [H2]; · iexact H2
    isplitl [H3]; · iexact H3
    isplitl [H4]; · iexact H4
    isplitl [H5]; · iexact H5
    iexact H6
  iexact Hp
/-- And put back. -/
theorem PhiA1_close (c : Dev nD) :
    iprop((∃ d, owns (c : Thread nD τ) scM1 fullShare d) ∗ restS1 (F := F) c ∗ (∃ r, prngReg c r))
      ⊢ (Pipeline.ΦA spec1 c : sProp 𝕄) := by
  unfold Pipeline.ΦA restS1; rw [scopedRest1_eq]; simp only [scM1, owns_whole]
  iintro ⟨H7, ⟨H0, H1, H2, H3, H4, H5, H6⟩, Hp⟩
  isplitr [Hp]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hp

-- END region-specific
/-- The region invariant before position `n`: before the first point the class's (the scratch at anything);
    afterwards the scratch at what the point before left in it, the other scoped buffers at anything, and the
    generator register at some state. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ restS1 (F := F) c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (accAt1 V c n hn) ∗ restS1 (F := F) c ∗ (∃ r, prngReg c r)) := rfl
theorem PhiS1_pos (c : Dev nD) (n : ℕ) (h : n ≤ cfg1.N) (hz : n ≠ 0) :
    PhiS1 V c n h = iprop(owns (c : Thread nD τ) scM1 fullShare (accAt1 V c (n - 1) (by omega)) ∗ restS1 (F := F) c ∗ (∃ r, prngReg c r)) := by
  cases n with
  | zero => exact absurd rfl hz
  | succ n => rfl

/-! ## The pipeline's proof data -/

/-- The proof data of this call on core `c`: the arrays as the region finds them; after the body at point `t` each
    input's buffer at its block and the output's at the running minimum (consulted at the last columns only, where the
    body stores it); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point: the inputs' buffers hold their blocks; the column decides the case; the invariant hands the
    body the scratch at what the point before left (at anything before the first point) and takes it back at this
    point's running minimum; off the last column the output buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 256 := lt_of_lt_of_eq t.isLt (show cfg1.N = 256 from N_1)
  by_cases h1 : t.val % 16 = 15
  · -- a last column
    have h0 : ¬t.val % 16 = 0 := by omega
    have hz : t.val ≠ 0 := by omega
    rw [show (dat1 V c).leavesExact 2 t = owns (c : Thread nD τ) (st1_2 t) fullShare ((dat1 V c).after 2 t) from by
      unfold Dat.leavesExact; rw [liveAt1_2 t ((hcond1_1 t).mpr h1)], after1_2]
    rw [accAt1_next V c t h0, PhiS1_castSucc V c t, PhiS1_pos V c _ _ hz]
    iintro ⟨⟨HS, Hr, Hg⟩, Ho, ⟨%d0, H0⟩, ⟨%d1, H1⟩, ⟨%d2, H2⟩⟩
    iapply (body1_last c Set.univ (grid1.coords t) _ _ _ _ _ _ scM1 (Memref.isWhole_whole _) (fun h => h0 ((hcond1_0 t).mp h)) ((hcond1_1 t).mpr h1) (qblk1 V c t) (kblk1 V c t) _ _ _)
    isplitl [H0]; · iexact H0
    isplitl [H1]; · iexact H1
    isplitl [H2]; · iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 16 = 0
    · -- a first column
      rw [accAt1_first V c t h0]
      by_cases hz : t.val = 0
      · rw [PhiS1_castSucc V c t, PhiS1_zero V c _ _ hz]
        iintro ⟨HΦ, Ho, ⟨%d0, H0⟩, ⟨%d1, H1⟩, ⟨%d2, H2⟩⟩
        ihave HΦ' := (PhiA1_open (F := F) c) $$ HΦ
        icases HΦ' with ⟨⟨%s, HS⟩, Hr, Hg⟩
        iapply (body1_first c Set.univ (grid1.coords t) _ _ _ _ _ _ scM1 (Memref.isWhole_whole _) ((hcond1_0 t).mpr h0) (fun h => h1 ((hcond1_1 t).mp h)) (qblk1 V c t) (kblk1 V c t) _ s _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
      · rw [PhiS1_castSucc V c t, PhiS1_pos V c _ _ hz]
        iintro ⟨⟨HS, Hr, Hg⟩, Ho, ⟨%d0, H0⟩, ⟨%d1, H1⟩, ⟨%d2, H2⟩⟩
        iapply (body1_first c Set.univ (grid1.coords t) _ _ _ _ _ _ scM1 (Memref.isWhole_whole _) ((hcond1_0 t).mpr h0) (fun h => h1 ((hcond1_1 t).mp h)) (qblk1 V c t) (kblk1 V c t) _ _ _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
    · -- a middle column
      have hz : t.val ≠ 0 := fun h => h0 (by rw [h])
      rw [accAt1_next V c t h0, PhiS1_castSucc V c t, PhiS1_pos V c _ _ hz]
      iintro ⟨⟨HS, Hr, Hg⟩, Ho, ⟨%d0, H0⟩, ⟨%d1, H1⟩, ⟨%d2, H2⟩⟩
      iapply (body1_mid c Set.univ (grid1.coords t) _ _ _ _ _ _ scM1 (Memref.isWhole_whole _) (fun h => h0 ((hcond1_0 t).mp h)) (fun h => h1 ((hcond1_1 t).mp h)) (qblk1 V c t) (kblk1 V c t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega)]
  iintro ⟨HS, Hr, Hg⟩
  iapply (PhiA1_close (F := F) c)
  isplitl [HS]; · iexists _; iexact HS
  isplitl [Hr]; · iexact Hr
  iexact Hg

end Cert.Kernel.Hand

end
-- ==== Proof.KB.Regs.lean ====
import proofs.«135132_j64836826300486_1_alg».proof.Proof.Gen.Kernel.Launch
import proofs.«135132_j64836826300486_1_alg».proof.Proof.Gen.Kernel.Skeleton
import proofs.«135132_j64836826300486_1_alg».proof.Proof.Gen.Kernel.Points
import proofs.«135132_j64836826300486_1_alg».proof.Proof.Gen.Kernel.Regions
import proofs.«135132_j64836826300486_1_alg».proof.Proof.KB.Dat0
import proofs.«135132_j64836826300486_1_alg».proof.Proof.KB.Dat1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between @main's items -/

/-- The first call's entry contents (after the host operations that scale the two clouds), read at the TensorCore's references. -/
abbrev U1 (c : Dev nD) (b : Ref sig .tc) : Buf (Elt F) ((c : Thread nD τ).loc b) := Gen.V1 m c b

/-- At the first call's exit: its arrays at what the pipeline leaves, every other buffer as entered. -/
def W2 (c : Dev nD) : Valuation τ sig (Elt F) :=
  Pipeline.withArrays spec0 c (Gen.V1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w

/-- What the first call leaves, as the unknown the generated valuations are written over. -/
def outsA : Gen.Outs (F := F) := fun _ r c => W2 m c r

/-- The second call's entry contents: the first call's output array replaced, read at the TensorCore's references. -/
abbrev U2 (c : Dev nD) (b : Ref sig .tc) : Buf (Elt F) ((c : Thread nD τ).loc b) := Gen.V2 m (outsA m) c b

/-- At the second call's exit. -/
def W4 (c : Dev nD) : Valuation τ sig (Elt F) :=
  Pipeline.withArrays spec1 c (Gen.V2 m (outsA m) c) fun w => (dat1 (U2 m) c).arrAt w cfg1.N
theorem W4_arr (c : Dev nD) (w : Fin cfg1.W) :
    W4 m c (Proc.devRef .tc (Pipeline.arrRef spec1 w)) = (dat1 (U2 m) c).arrAt w cfg1.N := by
  unfold W4; exact Pipeline.withArrays_arr spec1 launch1.win.arr_inj c _ _ w

/-- What the two calls leave in the arrays they may change. -/
def outs : Gen.Outs (F := F) := fun J r c => match J with
  | 2 => W2 m c r
  | _ => W4 m c r

theorem V2_outs (c : Dev nD) : Gen.V2 m (outs m) c = Gen.V2 m (outsA m) c := rfl

/-- The contents after the first call, read at the TensorCore's references. -/
abbrev X2 (c : Dev nD) (b : Ref sig .tc) : Buf (Elt F) ((c : Thread nD τ).loc b) := Gen.V2 m (outs m) c b
/-- The contents after the second call, read at the TensorCore's references. -/
abbrev X3 (c : Dev nD) (b : Ref sig .tc) : Buf (Elt F) ((c : Thread nD τ).loc b) := Gen.V3 m (outs m) c b

/-- After the first call each of its arrays holds what the pipeline leaves: an input what it held, the output its write-backs. -/
theorem hF0 (c : Dev nD) (w : Fin cfg0.W) : (dat0 (U1 m) c).arrAt w cfg0.N = X2 m c (Pipeline.arrRef spec0 w) := by
  match w with
  | ⟨0, _⟩ => exact ((dat0 (U1 m) c).arrAt_in 0 rfl _).trans ((A_eq0 (U1 m) c 0).trans (Gen.V2_of m (outs m) c main_v1 (by decide)).symm)
  | ⟨1, _⟩ => exact ((dat0 (U1 m) c).arrAt_in 1 rfl _).trans ((A_eq0 (U1 m) c 1).trans (Gen.V2_of m (outs m) c main_v3 (by decide)).symm)
  | ⟨2, _⟩ =>
    show _ = Function.update (Gen.V1 m c) (Proc.devRef .tc main_v4) (W2 m c main_v4) (Proc.devRef .tc main_v4)
    rw [Function.update_self]; exact (W2_arr m c 2).symm
/-- Every other buffer is as the call found it. -/
theorem hrest0 (c : Dev nD) : ∀ b, b ∉ Finset.univ.image (Pipeline.arrRef spec0) → X2 m c b = U1 m c b :=
  fun b hb => Gen.V2_of m (outs m) c b (by
    intro h; rw [List.mem_singleton] at h; subst h
    exact hb (Finset.mem_image.mpr ⟨2, Finset.mem_univ _, rfl⟩))
theorem hF1 (c : Dev nD) (w : Fin cfg1.W) : (dat1 (U2 m) c).arrAt w cfg1.N = X3 m c (Pipeline.arrRef spec1 w) := by
  match w with
  | ⟨0, _⟩ => exact ((dat1 (U2 m) c).arrAt_in 0 rfl _).trans ((A_eq1 (U2 m) c 0).trans (Gen.V3_of m (outs m) c main_v3 (by decide)).symm)
  | ⟨1, _⟩ => exact ((dat1 (U2 m) c).arrAt_in 1 rfl _).trans ((A_eq1 (U2 m) c 1).trans (Gen.V3_of m (outs m) c main_v1 (by decide)).symm)
  | ⟨2, _⟩ =>
    show _ = Function.update (Gen.V2 m (outs m) c) (Proc.devRef .tc main_v5) (W4 m c main_v5) (Proc.devRef .tc main_v5)
    rw [Function.update_self]; exact (W4_arr m c 2).symm
theorem hrest1 (c : Dev nD) : ∀ b, b ∉ Finset.univ.image (Pipeline.arrRef spec1) → X3 m c b = U2 m c b :=
  fun b hb => Gen.V3_of m (outs m) c b (by
    intro h; rw [List.mem_singleton] at h; subst h
    exact hb (Finset.mem_image.mpr ⟨2, Finset.mem_univ _, rfl⟩))

/-! ## The proof data family and what rides beside the buffers -/

/-- Every pipeline's proof data, each at its call's entry contents. -/
def pdats : (p : Fin 2) → (c : Dev nD) → Dat τ (Elt F) Unit ℕ (UR sig nD τ) ℕ (cfgs p) c
  | ⟨0, _⟩ => fun c => dat0 (U1 m) c
  | ⟨1, _⟩ => fun c => dat1 (U2 m) c

/-- No core owes another anything: no level is assigned. -/
abbrev Lnone : GSem nD τ sig → Finset Unit := fun _ => ∅
abbrev lvnone : GSem nD τ sig → Unit → ℕ := fun _ _ => 0

/-- What rides beside the buffers through every item: the generator register at some state, and nothing owed. -/
abbrev Rst (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- The first call as a segment of @main: entered with every unscoped buffer at `Gen.V1 m`, left with the call's output
    array at what its write-backs leave and every other unscoped buffer untouched. Its arrays are split out of the
    unscoped buffers at the entry and put back at the exit; the generator register goes into the invariant and comes
    back; the call owes nothing and has no semaphore of its own. -/
def reg0 : RegionSeg (pcfgs (F := F)) Gen.adm (pdats m) () defs₀ Variants.none Lnone lvnone 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ Lnone lvnone 0 fun _ _ => rfl
  pre c := iprop(StableHlo.held (c : Thread nD τ) (Pipeline.ucRefs τ sig) (Gen.V1 m c) ∗ Rst c)
  post c := iprop(StableHlo.held (c : Thread nD τ) (Pipeline.ucRefs τ sig) (Gen.V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second call as a segment of @main: entered with every unscoped buffer at `Gen.V2 m (outs m)`, left with the call's output
    array at what its write-backs leave and every other unscoped buffer untouched. Its arrays are split out of the
    unscoped buffers at the entry and put back at the exit; the generator register goes into the invariant and comes
    back; the call owes nothing and has no semaphore of its own. -/
def reg1 : RegionSeg (pcfgs (F := F)) Gen.adm (pdats m) () defs₀ Variants.none Lnone lvnone 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ Lnone lvnone 1 fun _ _ => rfl
  pre c := iprop(StableHlo.held (c : Thread nD τ) (Pipeline.ucRefs τ sig) (Gen.V2 m (outs m) c) ∗ Rst c)
  post c := iprop(StableHlo.held (c : Thread nD τ) (Pipeline.ucRefs τ sig) (Gen.V3 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none, V2_outs m c]
    have hsplit := Pipeline.arrays_of_unscopedBufs (p := 1) (pcfgs (F := F)) Gen.adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (U2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U2 m c) (X3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Frame.lean ====
import proofs.«135132_j64836826300486_1_alg».proof.Proof.Gen.Kernel.Launch
import proofs.«135132_j64836826300486_1_alg».proof.Proof.Gen.Kernel.Skeleton
import proofs.«135132_j64836826300486_1_alg».proof.Proof.Gen.Kernel.Points
import proofs.«135132_j64836826300486_1_alg».proof.Proof.KB.Regs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost element is the pipeline library's own, and leaves nothing over. -/
theorem launch_elt :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ fun _ : Dev nD => (BI.emp : sProp 𝕄)) := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro

/-- What the launch deals each core, without the buffers, makes what rides beside them: the generator register and nothing owed. -/
theorem launch_rest :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lnone lvnone)
      ⊢ (|={Set.univ}=> bigSep Finset.univ (fun c : Dev nD => Rst (F := F) c) : sProp 𝕄) := by
  refine Pipeline.initEach Lnone lvnone fun c => ?_
  iintro ⟨⟨-, HO, -, Hp, -⟩, -⟩
  imodintro
  isplitl [Hp]; · iexists _; iexact Hp
  iexists ∅; iexact HO

/-- At the end the core owes nothing. -/
theorem rest_owes (c : Dev nD) : Rst (F := F) c ⊢ (iprop(∃ W, owes (c : Thread nD τ) (0 : CellTallies nD τ sig Unit) W) : sProp 𝕄) := by
  iintro ⟨-, HO⟩; iexact HO

set_option backward.isDefEq.respectTransparency.types false in
/-- THE FRAME: from any memory with zero counters every weakly fair execution of @main terminates, nothing faulting, and
    the two argument arrays end as launched: the conditional frame of the program's two calls, at the two calls' records. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m emb₁ () Variants.none Lnone lvnone (fun _ _ => rfl) ρ (outs m) (pdats m)
    (0 : Dev nD → CellTallies nD τ sig Unit) (fun _ => (BI.emp : sProp 𝕄))
    (initOf (Pipeline.cells cfgs cellOf_inj) (Pipeline.launchToks cfgs cellOf_inj)) launch_elt
    (fun _ c => Rst c) (launch_rest ρ) rest_owes
    (reg0 m) (fun _ => .rfl) (fun _ => .rfl) (reg1 m) (fun _ => .rfl) (fun _ => .rfl)

end Cert.Kernel.Hand

end
-- ==== Proof.KI.Common.lean ====
import proofs.«135132_j64836826300486_1_alg».proof.Proof.Gen.KernelIdeal.Launch
import proofs.«135132_j64836826300486_1_alg».proof.Proof.Gen.KernelIdeal.Skeleton
import proofs.«135132_j64836826300486_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The all-zero offsets of a whole-block access, however they are spelt. -/
theorem hz2 : (![0, 0] : Fin S4x512.rank → ℕ) = fun _ => 0 := by funext a; fin_cases a <;> rfl
theorem hz3 : (![0, 0, 0] : Fin S4x512x3.rank → ℕ) = fun _ => 0 := by funext a; fin_cases a <;> rfl

/-- A store through the whole block covers the block, whatever was stored before. -/
theorem cov2 (w : S4x512.Idx → Elt F .f32) (L : List (View.Piece (Elt F) S4x512 .f32)) (y : S4x512.Idx) :
    ∃ p ∈ ((⟨Rect.unit ![0, 0] S4x512.size inb_S4x512_S4x512_0_0, w⟩ : View.Piece (Elt F) S4x512 .f32) :: L), y ∈ p.1.set :=
  ⟨_, List.mem_cons_self, View.mem_set_unit_zero hz2 inb_S4x512_S4x512_0_0 y⟩

end Cert.KernelIdeal.Hand

end
-- ==== Proof.KI.Body0.lean ====
import proofs.«135132_j64836826300486_1_alg».proof.Proof.Gen.KernelIdeal.Launch
import proofs.«135132_j64836826300486_1_alg».proof.Proof.Gen.KernelIdeal.Skeleton
import proofs.«135132_j64836826300486_1_alg».proof.Proof.Gen.KernelIdeal.Points
import proofs.«135132_j64836826300486_1_alg».proof.Proof.KI.Common
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One grid point's update of the running minimum: from the running minimum `acc` of a row block and the
    query block `q` and key block `k`, the new running minimum (the elementwise minimum of `acc` with the
    row-wise minimum over the key block of the clamped squared distances). -/
def step0 (acc : Vec F S4x512 .f32) (q k : Vec F S4x512x3 .f32) : Vec F S4x512 .f32 :=
  k0_pay1 (k0_pay11 q k) (k0_pay12 k) (k0_pay13 q) acc

/-- The first-column condition of the body (`j = 0`), as the kernel computes it. -/
abbrev cond0_0 (i : grid0.Coords) : Prop := (Scalar.cmpi .ne (Scalar.extui (Scalar.cmpi .eq (BitVec.ofNat 32 (i 1).val) 0#32)) 0#32) = 1#1
/-- The last-column condition of the body (`j = 15`). -/
abbrev cond0_1 (i : grid0.Coords) : Prop := k0_cond2 i = 1#1

set_option maxHeartbeats 2000000 in
/-- A middle column (neither first nor last): the running minimum is updated in place, the output buffer untouched. -/
theorem body0_mid (c : Dev nD) (E : Set ℕ) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4x512 .f32) (harg4 : arg4.IsWhole) (arg5 : Memref sig .tc .vmem S4x512 .f32) (harg5 : arg5.IsWhole)
    (hc0 : ¬cond0_0 i) (hc1 : ¬cond0_1 i)
    (x0 x1 : Vec F S4x512x3 .f32) (d s : Vec F S4x512 .f32) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare s
        ∗ (iprop(owns (c : Thread nD τ) arg2 fullShare x0 ∗ owns (c : Thread nD τ) arg3 fullShare x1
            ∗ owns (c : Thread nD τ) arg4 fullShare (d) ∗ owns (c : Thread nD τ) arg5 fullShare (step0 (s) x0 x1)) -∗ K ⟨⟩))
      ⊢ wp frame (wpE (defs₀ (F := F)) Variants.none c none) E (cc0__nn_min_kernel i arg2 harg2 arg3 harg3 arg4 harg4 arg5 harg5) K := by
  simp only [cc0__nn_min_kernel_eq_skeleton]; unfold cc0__nn_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact H3
  ipureintro
  sl_unfold_words
  rw [View.read_writes_eq_canon _ _ _ (cov2 _ _), View.canon_unit_zero hz2]
  simp only [View.readAt_eq_ld, harg2.read_unread, harg3.read_unread, harg5.read_unread, View.ld_unit_zero (S := S4x512) hz2, View.ld_unit_zero (S := S4x512x3) hz3, View.readCov_unit_zero (S := S4x512) _ hz2]
  rfl

set_option maxHeartbeats 2000000 in
/-- A first column: the running minimum restarts from the all-`+∞` block, the output buffer untouched. -/
theorem body0_first (c : Dev nD) (E : Set ℕ) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4x512 .f32) (harg4 : arg4.IsWhole) (arg5 : Memref sig .tc .vmem S4x512 .f32) (harg5 : arg5.IsWhole)
    (hc0 : cond0_0 i) (hc1 : ¬cond0_1 i)
    (x0 x1 : Vec F S4x512x3 .f32) (d s : Vec F S4x512 .f32) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare s
        ∗ (iprop(owns (c : Thread nD τ) arg2 fullShare x0 ∗ owns (c : Thread nD τ) arg3 fullShare x1
            ∗ owns (c : Thread nD τ) arg4 fullShare (d) ∗ owns (c : Thread nD τ) arg5 fullShare (step0 (k0_pay2) x0 x1)) -∗ K ⟨⟩))
      ⊢ wp frame (wpE (defs₀ (F := F)) Variants.none c none) E (cc0__nn_min_kernel i arg2 harg2 arg3 harg3 arg4 harg4 arg5 harg5) K := by
  simp only [cc0__nn_min_kernel_eq_skeleton]; unfold cc0__nn_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact H3
  ipureintro
  sl_unfold_words
  rw [View.read_writes_eq_canon _ _ _ (cov2 _ _), View.canon_cons_unit_zero hz2]
  simp only [View.readAt_eq_ld, harg2.read_unread, harg3.read_unread, harg5.read_unread, View.ld_unit_zero (S := S4x512) hz2, View.ld_unit_zero (S := S4x512x3) hz3, View.readCov_unit_zero (S := S4x512) _ hz2]
  rfl

set_option maxHeartbeats 2000000 in
/-- A last column: the running minimum is updated, and the output buffer receives it. -/
theorem body0_last (c : Dev nD) (E : Set ℕ) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4x512 .f32) (harg4 : arg4.IsWhole) (arg5 : Memref sig .tc .vmem S4x512 .f32) (harg5 : arg5.IsWhole)
    (hc0 : ¬cond0_0 i) (hc1 : cond0_1 i)
    (x0 x1 : Vec F S4x512x3 .f32) (d s : Vec F S4x512 .f32) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare s
        ∗ (iprop(owns (c : Thread nD τ) arg2 fullShare x0 ∗ owns (c : Thread nD τ) arg3 fullShare x1
            ∗ owns (c : Thread nD τ) arg4 fullShare (step0 s x0 x1) ∗ owns (c : Thread nD τ) arg5 fullShare (step0 (s) x0 x1)) -∗ K ⟨⟩))
      ⊢ wp frame (wpE (defs₀ (F := F)) Variants.none c none) E (cc0__nn_min_kernel i arg2 harg2 arg3 harg3 arg4 harg4 arg5 harg5) K := by
  simp only [cc0__nn_min_kernel_eq_skeleton]; unfold cc0__nn_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (cov2 _ _), View.canon_unit_zero hz2]
    simp only [View.readAt_eq_ld, harg2.read_unread, harg3.read_unread, harg5.read_unread, View.ld_unit_zero (S := S4x512) hz2, View.ld_unit_zero (S := S4x512x3) hz3, View.readCov_unit_zero (S := S4x512) _ hz2]
    rfl
  iexists _; isplitr
  swap; · iexact H3
  ipureintro
  sl_unfold_words
  rw [View.read_writes_eq_canon _ _ _ (cov2 _ _), View.canon_unit_zero hz2]
  simp only [View.readAt_eq_ld, harg2.read_unread, harg3.read_unread, harg5.read_unread, View.ld_unit_zero (S := S4x512) hz2, View.ld_unit_zero (S := S4x512x3) hz3, View.readCov_unit_zero (S := S4x512) _ hz2]
  rfl

end Cert.KernelIdeal.Hand

end
-- ==== Proof.KI.Dat0.lean ====
import proofs.«135132_j64836826300486_1_alg».proof.Proof.Gen.KernelIdeal.Launch
import proofs.«135132_j64836826300486_1_alg».proof.Proof.Gen.KernelIdeal.Skeleton
import proofs.«135132_j64836826300486_1_alg».proof.Proof.Gen.KernelIdeal.Points
import proofs.«135132_j64836826300486_1_alg».proof.Proof.KI.Body0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered: a parameter, instantiated by the run
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query block (rows `512·i … 512·i + 511` of the first operand) and the key block (rows `512·j …` of the
    second) of point `t = 16·i + j`, at their literal type. -/
abbrev qblk0 (c : Dev nD) (t : Fin cfg0.N) : Vec F S4x512x3 .f32 := iblk0 V c 0 t
abbrev kblk0 (c : Dev nD) (t : Fin cfg0.N) : Vec F S4x512x3 .f32 := iblk0 V c 1 t

/-- An input window's current staging buffer holds its block at every point, fetched there or not: unfetched, the
    block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The conditions over the grid, and where the output window is idle -/

/-- The first-column condition holds at the points `≡ 0 (mod 16)`. -/
theorem hcond0_0 : ∀ t : Fin cfg0.N, cond0_0 (grid0.coords t) ↔ t.val % 16 = 0 :=
  (by decide +kernel : ∀ t : Fin grid0.N, cond0_0 (grid0.coords t) ↔ t.val % 16 = 0)
/-- The last-column condition holds at the points `≡ 15 (mod 16)`. -/
theorem hcond0_1 : ∀ t : Fin cfg0.N, cond0_1 (grid0.coords t) ↔ t.val % 16 = 15 :=
  (by decide +kernel : ∀ t : Fin grid0.N, cond0_1 (grid0.coords t) ↔ t.val % 16 = 15)
/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- The output window is idle exactly off the last column, and there it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The running minimum, point by point -/

/-- The scratch operand: a whole scoped buffer of the kernel's own. -/
abbrev scM0 : Memref sig .tc .vmem S4x512 .f32 := Memref.whole cc0_scratch0

/-- What the scratch holds after the body at position `n`: at a first column the update of the all-`+∞` block,
    elsewhere the update of what the point before left, by that point's query and key blocks. -/
def accAt0 (c : Dev nD) : (n : ℕ) → n < cfg0.N → Vec F S4x512 .f32
  | 0, hn => step0 k0_pay2 (qblk0 V c ⟨0, hn⟩) (kblk0 V c ⟨0, hn⟩)
  | n + 1, hn =>
    if (n + 1) % 16 = 0 then step0 k0_pay2 (qblk0 V c ⟨n + 1, hn⟩) (kblk0 V c ⟨n + 1, hn⟩)
    else step0 (accAt0 c n (Nat.lt_of_succ_lt hn)) (qblk0 V c ⟨n + 1, hn⟩) (kblk0 V c ⟨n + 1, hn⟩)

/-- At a first column the running minimum restarts. -/
theorem accAt0_first (c : Dev nD) (t : Fin cfg0.N) (h0 : t.val % 16 = 0) :
    accAt0 V c t.val t.isLt = step0 k0_pay2 (qblk0 V c t) (kblk0 V c t) := by
  obtain ⟨n, hn⟩ := t
  cases n with
  | zero => rfl
  | succ n => exact if_pos h0

/-- Elsewhere it updates what the point before left. -/
theorem accAt0_next (c : Dev nD) (t : Fin cfg0.N) (h0 : ¬t.val % 16 = 0) :
    accAt0 V c t.val t.isLt = step0 (accAt0 V c (t.val - 1) (Nat.lt_of_le_of_lt (Nat.sub_le _ _) t.isLt)) (qblk0 V c t) (kblk0 V c t) := by
  obtain ⟨n, hn⟩ := t
  cases n with
  | zero => exact absurd (Nat.zero_mod _) h0
  | succ n => exact if_neg h0

/-! ## The region invariant -/

-- BEGIN region-specific
/-- The core's scoped buffers that are neither a staging buffer of this call nor its scratch, at some contents each. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the scratch split off, as a memref owned at some contents. -/
theorem PhiA0_open (c : Dev nD) :
    (Pipeline.ΦA spec0 c : sProp 𝕄)
      ⊢ iprop((∃ d, owns (c : Thread nD τ) scM0 fullShare d) ∗ restS0 (F := F) c ∗ (∃ r, prngReg c r)) := by
  unfold Pipeline.ΦA restS0; rw [scopedRest0_eq]; simp only [scM0, owns_whole]
  iintro ⟨⟨H0, Hr⟩, Hp⟩
  isplitl [H0]; · iexact H0
  isplitl [Hr]; · iexact Hr
  iexact Hp
/-- And put back. -/
theorem PhiA0_close (c : Dev nD) :
    iprop((∃ d, owns (c : Thread nD τ) scM0 fullShare d) ∗ restS0 (F := F) c ∗ (∃ r, prngReg c r))
      ⊢ (Pipeline.ΦA spec0 c : sProp 𝕄) := by
  unfold Pipeline.ΦA restS0; rw [scopedRest0_eq]; simp only [scM0, owns_whole]
  iintro ⟨H0, Hr, Hp⟩
  isplitr [Hp]
  · isplitl [H0]; · iexact H0
    iexact Hr
  iexact Hp

-- END region-specific
/-- The region invariant before position `n`: before the first point the class's (the scratch at anything);
    afterwards the scratch at what the point before left in it, the other scoped buffers at anything, and the
    generator register at some state. -/
def PhiS0 (c : Dev nD) : (n : ℕ) → n ≤ cfg0.N → sProp 𝕄
  | 0, _ => Pipeline.ΦA spec0 c
  | n + 1, hn => iprop(owns (c : Thread nD τ) scM0 fullShare (accAt0 V c n hn) ∗ restS0 (F := F) c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare (accAt0 V c n hn) ∗ restS0 (F := F) c ∗ (∃ r, prngReg c r)) := rfl
theorem PhiS0_pos (c : Dev nD) (n : ℕ) (h : n ≤ cfg0.N) (hz : n ≠ 0) :
    PhiS0 V c n h = iprop(owns (c : Thread nD τ) scM0 fullShare (accAt0 V c (n - 1) (by omega)) ∗ restS0 (F := F) c ∗ (∃ r, prngReg c r)) := by
  cases n with
  | zero => exact absurd rfl hz
  | succ n => rfl

/-! ## The pipeline's proof data -/

/-- The proof data of this call on core `c`: the arrays as the region finds them; after the body at point `t` each
    input's buffer at its block and the output's at the running minimum (consulted at the last columns only, where the
    body stores it); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: the inputs' buffers hold their blocks; the column decides the case; the invariant hands the
    body the scratch at what the point before left (at anything before the first point) and takes it back at this
    point's running minimum; off the last column the output buffer goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 256 := lt_of_lt_of_eq t.isLt (show cfg0.N = 256 from N_0)
  by_cases h1 : t.val % 16 = 15
  · -- a last column
    have h0 : ¬t.val % 16 = 0 := by omega
    have hz : t.val ≠ 0 := by omega
    rw [show (dat0 V c).leavesExact 2 t = owns (c : Thread nD τ) (st0_2 t) fullShare ((dat0 V c).after 2 t) from by
      unfold Dat.leavesExact; rw [liveAt0_2 t ((hcond0_1 t).mpr h1)], after0_2]
    rw [accAt0_next V c t h0, PhiS0_castSucc V c t, PhiS0_pos V c _ _ hz]
    iintro ⟨⟨HS, Hr, Hg⟩, Ho, ⟨%d0, H0⟩, ⟨%d1, H1⟩, ⟨%d2, H2⟩⟩
    iapply (body0_last c Set.univ (grid0.coords t) _ _ _ _ _ _ scM0 (Memref.isWhole_whole _) (fun h => h0 ((hcond0_0 t).mp h)) ((hcond0_1 t).mpr h1) (qblk0 V c t) (kblk0 V c t) _ _ _)
    isplitl [H0]; · iexact H0
    isplitl [H1]; · iexact H1
    isplitl [H2]; · iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · rw [Dat.leavesExact_idle (dat0 V c) 2 t (idleAt0_2 t (fun h => h1 ((hcond0_1 t).mp h))) (noFlush0_2 t (fun h => h1 ((hcond0_1 t).mp h)))]
    by_cases h0 : t.val % 16 = 0
    · -- a first column
      rw [accAt0_first V c t h0]
      by_cases hz : t.val = 0
      · rw [PhiS0_castSucc V c t, PhiS0_zero V c _ _ hz]
        iintro ⟨HΦ, Ho, ⟨%d0, H0⟩, ⟨%d1, H1⟩, ⟨%d2, H2⟩⟩
        ihave HΦ' := (PhiA0_open (F := F) c) $$ HΦ
        icases HΦ' with ⟨⟨%s, HS⟩, Hr, Hg⟩
        iapply (body0_first c Set.univ (grid0.coords t) _ _ _ _ _ _ scM0 (Memref.isWhole_whole _) ((hcond0_0 t).mpr h0) (fun h => h1 ((hcond0_1 t).mp h)) (qblk0 V c t) (kblk0 V c t) _ s _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
      · rw [PhiS0_castSucc V c t, PhiS0_pos V c _ _ hz]
        iintro ⟨⟨HS, Hr, Hg⟩, Ho, ⟨%d0, H0⟩, ⟨%d1, H1⟩, ⟨%d2, H2⟩⟩
        iapply (body0_first c Set.univ (grid0.coords t) _ _ _ _ _ _ scM0 (Memref.isWhole_whole _) ((hcond0_0 t).mpr h0) (fun h => h1 ((hcond0_1 t).mp h)) (qblk0 V c t) (kblk0 V c t) _ _ _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
    · -- a middle column
      have hz : t.val ≠ 0 := fun h => h0 (by rw [h])
      rw [accAt0_next V c t h0, PhiS0_castSucc V c t, PhiS0_pos V c _ _ hz]
      iintro ⟨⟨HS, Hr, Hg⟩, Ho, ⟨%d0, H0⟩, ⟨%d1, H1⟩, ⟨%d2, H2⟩⟩
      iapply (body0_mid c Set.univ (grid0.coords t) _ _ _ _ _ _ scM0 (Memref.isWhole_whole _) (fun h => h0 ((hcond0_0 t).mp h)) (fun h => h1 ((hcond0_1 t).mp h)) (qblk0 V c t) (kblk0 V c t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 256 := N_0; omega)]
  iintro ⟨HS, Hr, Hg⟩
  iapply (PhiA0_close (F := F) c)
  isplitl [HS]; · iexists _; iexact HS
  isplitl [Hr]; · iexact Hr
  iexact Hg

end Cert.KernelIdeal.Hand

end
-- ==== Proof.KI.Body1.lean ====
import proofs.«135132_j64836826300486_1_alg».proof.Proof.Gen.KernelIdeal.Launch
import proofs.«135132_j64836826300486_1_alg».proof.Proof.Gen.KernelIdeal.Skeleton
import proofs.«135132_j64836826300486_1_alg».proof.Proof.Gen.KernelIdeal.Points
import proofs.«135132_j64836826300486_1_alg».proof.Proof.KI.Common
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One grid point's update of the running minimum: from the running minimum `acc` of a row block and the
    query block `q` and key block `k`, the new running minimum (the elementwise minimum of `acc` with the
    row-wise minimum over the key block of the clamped squared distances). -/
def step1 (acc : Vec F S4x512 .f32) (q k : Vec F S4x512x3 .f32) : Vec F S4x512 .f32 :=
  k1_pay1 (k1_pay11 q k) (k1_pay12 k) (k1_pay13 q) acc

/-- The first-column condition of the body (`j = 0`), as the kernel computes it. -/
abbrev cond1_0 (i : grid1.Coords) : Prop := (Scalar.cmpi .ne (Scalar.extui (Scalar.cmpi .eq (BitVec.ofNat 32 (i 1).val) 0#32)) 0#32) = 1#1
/-- The last-column condition of the body (`j = 15`). -/
abbrev cond1_1 (i : grid1.Coords) : Prop := k1_cond2 i = 1#1

set_option maxHeartbeats 2000000 in
/-- A middle column (neither first nor last): the running minimum is updated in place, the output buffer untouched. -/
theorem body1_mid (c : Dev nD) (E : Set ℕ) (i : grid1.Coords)
    (arg2 : Memref sig .tc .vmem S4x512x3 .f32) (harg2 : arg2.IsWhole) (arg3 : Memref sig .tc .vmem S4x512x3 .f32) (harg3 : arg3.IsWhole)
    (arg4 : Memref sig .tc .vmem S4x512 .f32) (harg4 : arg4.IsWhole) (arg5 : Memref sig .tc .vmem S4x512 .f32) (harg5 : arg5.IsWhole)
    (hc0 : ¬cond1_0 i) (hc1 : ¬cond1_1 i)
    (x0 x1 : Vec F S4x512x3 .f32) (d s : Vec F S4x512 .f32) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare s
        ∗ (iprop(owns (c : Thread nD τ) arg2 fullShare x0 ∗ owns (c : Thread nD τ) arg3 fullShare x1
            ∗ owns (c : Thread nD τ) arg4 fullShare (d) ∗ owns (c : Thread nD τ) arg5 fullShare (step1 (s) x0 x1)) -∗ K ⟨⟩))
      ⊢ wp frame (wpE (defs₀ (F := F)) Variants.none c none) E (cc1__nn_min_kernel i arg2 harg2 arg3 harg3 arg4 harg4 arg5 harg5) K := by
  simp only [cc1__nn_min_kernel_eq_skeleton]; unfold cc1__nn_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact H3
  ipureintro
  sl_unfold_words
  rw [View.read_writes_eq_canon _ _ _ (cov2 _ _), View.canon_unit_zero hz2]
  simp only [View.readAt_eq_ld, harg2.read_unread, harg3.read_unread, harg5.read_unread, View.ld_unit_zero (S := S4x512) hz2, View.ld_unit_zero (S := S4x512x3) hz3, View.readCov_unit_zero (S := S4x512) _ hz2]
  rfl

set_option maxHeartbeats 2000000 in
/-- A first column: the running minimum restarts from the all-`+∞` block, the output buffer untouched. -/
theorem body1_first (c : Dev nD) (E : Set ℕ) (i : grid1.Coords)
    (arg2 : Memref sig .tc .vmem S4x512x3 .f32) (harg2 : arg2.IsWhole) (arg3 : Memref sig .tc .vmem S4x512x3 .f32) (harg3 : arg3.IsWhole)
    (arg4 : Memref sig .tc .vmem S4x512 .f32) (harg4 : arg4.IsWhole) (arg5 : Memref sig .tc .vmem S4x512 .f32) (harg5 : arg5.IsWhole)
    (hc0 : cond1_0 i) (hc1 : ¬cond1_1 i)
    (x0 x1 : Vec F S4x512x3 .f32) (d s : Vec F S4x512 .f32) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare s
        ∗ (iprop(owns (c : Thread nD τ) arg2 fullShare x0 ∗ owns (c : Thread nD τ) arg3 fullShare x1
            ∗ owns (c : Thread nD τ) arg4 fullShare (d) ∗ owns (c : Thread nD τ) arg5 fullShare (step1 (k1_pay2) x0 x1)) -∗ K ⟨⟩))
      ⊢ wp frame (wpE (defs₀ (F := F)) Variants.none c none) E (cc1__nn_min_kernel i arg2 harg2 arg3 harg3 arg4 harg4 arg5 harg5) K := by
  simp only [cc1__nn_min_kernel_eq_skeleton]; unfold cc1__nn_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact H3
  ipureintro
  sl_unfold_words
  rw [View.read_writes_eq_canon _ _ _ (cov2 _ _), View.canon_cons_unit_zero hz2]
  simp only [View.readAt_eq_ld, harg2.read_unread, harg3.read_unread, harg5.read_unread, View.ld_unit_zero (S := S4x512) hz2, View.ld_unit_zero (S := S4x512x3) hz3, View.readCov_unit_zero (S := S4x512) _ hz2]
  rfl

set_option maxHeartbeats 2000000 in
/-- A last column: the running minimum is updated, and the output buffer receives it. -/
theorem body1_last (c : Dev nD) (E : Set ℕ) (i : grid1.Coords)
    (arg2 : Memref sig .tc .vmem S4x512x3 .f32) (harg2 : arg2.IsWhole) (arg3 : Memref sig .tc .vmem S4x512x3 .f32) (harg3 : arg3.IsWhole)
    (arg4 : Memref sig .tc .vmem S4x512 .f32) (harg4 : arg4.IsWhole) (arg5 : Memref sig .tc .vmem S4x512 .f32) (harg5 : arg5.IsWhole)
    (hc0 : ¬cond1_0 i) (hc1 : cond1_1 i)
    (x0 x1 : Vec F S4x512x3 .f32) (d s : Vec F S4x512 .f32) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare s
        ∗ (iprop(owns (c : Thread nD τ) arg2 fullShare x0 ∗ owns (c : Thread nD τ) arg3 fullShare x1
            ∗ owns (c : Thread nD τ) arg4 fullShare (step1 s x0 x1) ∗ owns (c : Thread nD τ) arg5 fullShare (step1 (s) x0 x1)) -∗ K ⟨⟩))
      ⊢ wp frame (wpE (defs₀ (F := F)) Variants.none c none) E (cc1__nn_min_kernel i arg2 harg2 arg3 harg3 arg4 harg4 arg5 harg5) K := by
  simp only [cc1__nn_min_kernel_eq_skeleton]; unfold cc1__nn_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (cov2 _ _), View.canon_unit_zero hz2]
    simp only [View.readAt_eq_ld, harg2.read_unread, harg3.read_unread, harg5.read_unread, View.ld_unit_zero (S := S4x512) hz2, View.ld_unit_zero (S := S4x512x3) hz3, View.readCov_unit_zero (S := S4x512) _ hz2]
    rfl
  iexists _; isplitr
  swap; · iexact H3
  ipureintro
  sl_unfold_words
  rw [View.read_writes_eq_canon _ _ _ (cov2 _ _), View.canon_unit_zero hz2]
  simp only [View.readAt_eq_ld, harg2.read_unread, harg3.read_unread, harg5.read_unread, View.ld_unit_zero (S := S4x512) hz2, View.ld_unit_zero (S := S4x512x3) hz3, View.readCov_unit_zero (S := S4x512) _ hz2]
  rfl

end Cert.KernelIdeal.Hand

end
-- ==== Proof.KI.Dat1.lean ====
import proofs.«135132_j64836826300486_1_alg».proof.Proof.Gen.KernelIdeal.Launch
import proofs.«135132_j64836826300486_1_alg».proof.Proof.Gen.KernelIdeal.Skeleton
import proofs.«135132_j64836826300486_1_alg».proof.Proof.Gen.KernelIdeal.Points
import proofs.«135132_j64836826300486_1_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered: a parameter, instantiated by the run
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block (rows `512·i … 512·i + 511` of the first operand) and the key block (rows `512·j …` of the
    second) of point `t = 16·i + j`, at their literal type. -/
abbrev qblk1 (c : Dev nD) (t : Fin cfg1.N) : Vec F S4x512x3 .f32 := iblk1 V c 0 t
abbrev kblk1 (c : Dev nD) (t : Fin cfg1.N) : Vec F S4x512x3 .f32 := iblk1 V c 1 t

/-- An input window's current staging buffer holds its block at every point, fetched there or not: unfetched, the
    block index has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The conditions over the grid, and where the output window is idle -/

/-- The first-column condition holds at the points `≡ 0 (mod 16)`. -/
theorem hcond1_0 : ∀ t : Fin cfg1.N, cond1_0 (grid1.coords t) ↔ t.val % 16 = 0 :=
  (by decide +kernel : ∀ t : Fin grid1.N, cond1_0 (grid1.coords t) ↔ t.val % 16 = 0)
/-- The last-column condition holds at the points `≡ 15 (mod 16)`. -/
theorem hcond1_1 : ∀ t : Fin cfg1.N, cond1_1 (grid1.coords t) ↔ t.val % 16 = 15 :=
  (by decide +kernel : ∀ t : Fin grid1.N, cond1_1 (grid1.coords t) ↔ t.val % 16 = 15)
/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- The output window is idle exactly off the last column, and there it is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The running minimum, point by point -/

/-- The scratch operand: a whole scoped buffer of the kernel's own. -/
abbrev scM1 : Memref sig .tc .vmem S4x512 .f32 := Memref.whole cc1_scratch0

/-- What the scratch holds after the body at position `n`: at a first column the update of the all-`+∞` block,
    elsewhere the update of what the point before left, by that point's query and key blocks. -/
def accAt1 (c : Dev nD) : (n : ℕ) → n < cfg1.N → Vec F S4x512 .f32
  | 0, hn => step1 k1_pay2 (qblk1 V c ⟨0, hn⟩) (kblk1 V c ⟨0, hn⟩)
  | n + 1, hn =>
    if (n + 1) % 16 = 0 then step1 k1_pay2 (qblk1 V c ⟨n + 1, hn⟩) (kblk1 V c ⟨n + 1, hn⟩)
    else step1 (accAt1 c n (Nat.lt_of_succ_lt hn)) (qblk1 V c ⟨n + 1, hn⟩) (kblk1 V c ⟨n + 1, hn⟩)

/-- At a first column the running minimum restarts. -/
theorem accAt1_first (c : Dev nD) (t : Fin cfg1.N) (h0 : t.val % 16 = 0) :
    accAt1 V c t.val t.isLt = step1 k1_pay2 (qblk1 V c t) (kblk1 V c t) := by
  obtain ⟨n, hn⟩ := t
  cases n with
  | zero => rfl
  | succ n => exact if_pos h0

/-- Elsewhere it updates what the point before left. -/
theorem accAt1_next (c : Dev nD) (t : Fin cfg1.N) (h0 : ¬t.val % 16 = 0) :
    accAt1 V c t.val t.isLt = step1 (accAt1 V c (t.val - 1) (Nat.lt_of_le_of_lt (Nat.sub_le _ _) t.isLt)) (qblk1 V c t) (kblk1 V c t) := by
  obtain ⟨n, hn⟩ := t
  cases n with
  | zero => exact absurd (Nat.zero_mod _) h0
  | succ n => exact if_neg h0

/-! ## The region invariant -/

-- BEGIN region-specific
/-- The core's scoped buffers that are neither a staging buffer of this call nor its scratch, at some contents each. -/
def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant with the scratch split off, as a memref owned at some contents. -/
theorem PhiA1_open (c : Dev nD) :
    (Pipeline.ΦA spec1 c : sProp 𝕄)
      ⊢ iprop((∃ d, owns (c : Thread nD τ) scM1 fullShare d) ∗ restS1 (F := F) c ∗ (∃ r, prngReg c r)) := by
  unfold Pipeline.ΦA restS1; rw [scopedRest1_eq]; simp only [scM1, owns_whole]
  iintro ⟨⟨H0, H1, H2, H3, H4, H5, H6, H7⟩, Hp⟩
  isplitl [H7]; · iexact H7
  isplitr [Hp]
  · isplitl [H0]; · iexact H0
    isplitl [H1]; · iexact H1
    isplitl [H2]; · iexact H2
    isplitl [H3]; · iexact H3
    isplitl [H4]; · iexact H4
    isplitl [H5]; · iexact H5
    iexact H6
  iexact Hp
/-- And put back. -/
theorem PhiA1_close (c : Dev nD) :
    iprop((∃ d, owns (c : Thread nD τ) scM1 fullShare d) ∗ restS1 (F := F) c ∗ (∃ r, prngReg c r))
      ⊢ (Pipeline.ΦA spec1 c : sProp 𝕄) := by
  unfold Pipeline.ΦA restS1; rw [scopedRest1_eq]; simp only [scM1, owns_whole]
  iintro ⟨H7, ⟨H0, H1, H2, H3, H4, H5, H6⟩, Hp⟩
  isplitr [Hp]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hp

-- END region-specific
/-- The region invariant before position `n`: before the first point the class's (the scratch at anything);
    afterwards the scratch at what the point before left in it, the other scoped buffers at anything, and the
    generator register at some state. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ restS1 (F := F) c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (accAt1 V c n hn) ∗ restS1 (F := F) c ∗ (∃ r, prngReg c r)) := rfl
theorem PhiS1_pos (c : Dev nD) (n : ℕ) (h : n ≤ cfg1.N) (hz : n ≠ 0) :
    PhiS1 V c n h = iprop(owns (c : Thread nD τ) scM1 fullShare (accAt1 V c (n - 1) (by omega)) ∗ restS1 (F := F) c ∗ (∃ r, prngReg c r)) := by
  cases n with
  | zero => exact absurd rfl hz
  | succ n => rfl

/-! ## The pipeline's proof data -/

/-- The proof data of this call on core `c`: the arrays as the region finds them; after the body at point `t` each
    input's buffer at its block and the output's at the running minimum (consulted at the last columns only, where the
    body stores it); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point: the inputs' buffers hold their blocks; the column decides the case; the invariant hands the
    body the scratch at what the point before left (at anything before the first point) and takes it back at this
    point's running minimum; off the last column the output buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 256 := lt_of_lt_of_eq t.isLt (show cfg1.N = 256 from N_1)
  by_cases h1 : t.val % 16 = 15
  · -- a last column
    have h0 : ¬t.val % 16 = 0 := by omega
    have hz : t.val ≠ 0 := by omega
    rw [show (dat1 V c).leavesExact 2 t = owns (c : Thread nD τ) (st1_2 t) fullShare ((dat1 V c).after 2 t) from by
      unfold Dat.leavesExact; rw [liveAt1_2 t ((hcond1_1 t).mpr h1)], after1_2]
    rw [accAt1_next V c t h0, PhiS1_castSucc V c t, PhiS1_pos V c _ _ hz]
    iintro ⟨⟨HS, Hr, Hg⟩, Ho, ⟨%d0, H0⟩, ⟨%d1, H1⟩, ⟨%d2, H2⟩⟩
    iapply (body1_last c Set.univ (grid1.coords t) _ _ _ _ _ _ scM1 (Memref.isWhole_whole _) (fun h => h0 ((hcond1_0 t).mp h)) ((hcond1_1 t).mpr h1) (qblk1 V c t) (kblk1 V c t) _ _ _)
    isplitl [H0]; · iexact H0
    isplitl [H1]; · iexact H1
    isplitl [H2]; · iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 16 = 0
    · -- a first column
      rw [accAt1_first V c t h0]
      by_cases hz : t.val = 0
      · rw [PhiS1_castSucc V c t, PhiS1_zero V c _ _ hz]
        iintro ⟨HΦ, Ho, ⟨%d0, H0⟩, ⟨%d1, H1⟩, ⟨%d2, H2⟩⟩
        ihave HΦ' := (PhiA1_open (F := F) c) $$ HΦ
        icases HΦ' with ⟨⟨%s, HS⟩, Hr, Hg⟩
        iapply (body1_first c Set.univ (grid1.coords t) _ _ _ _ _ _ scM1 (Memref.isWhole_whole _) ((hcond1_0 t).mpr h0) (fun h => h1 ((hcond1_1 t).mp h)) (qblk1 V c t) (kblk1 V c t) _ s _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
      · rw [PhiS1_castSucc V c t, PhiS1_pos V c _ _ hz]
        iintro ⟨⟨HS, Hr, Hg⟩, Ho, ⟨%d0, H0⟩, ⟨%d1, H1⟩, ⟨%d2, H2⟩⟩
        iapply (body1_first c Set.univ (grid1.coords t) _ _ _ _ _ _ scM1 (Memref.isWhole_whole _) ((hcond1_0 t).mpr h0) (fun h => h1 ((hcond1_1 t).mp h)) (qblk1 V c t) (kblk1 V c t) _ _ _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
    · -- a middle column
      have hz : t.val ≠ 0 := fun h => h0 (by rw [h])
      rw [accAt1_next V c t h0, PhiS1_castSucc V c t, PhiS1_pos V c _ _ hz]
      iintro ⟨⟨HS, Hr, Hg⟩, Ho, ⟨%d0, H0⟩, ⟨%d1, H1⟩, ⟨%d2, H2⟩⟩
      iapply (body1_mid c Set.univ (grid1.coords t) _ _ _ _ _ _ scM1 (Memref.isWhole_whole _) (fun h => h0 ((hcond1_0 t).mp h)) (fun h => h1 ((hcond1_1 t).mp h)) (qblk1 V c t) (kblk1 V c t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega)]
  iintro ⟨HS, Hr, Hg⟩
  iapply (PhiA1_close (F := F) c)
  isplitl [HS]; · iexists _; iexact HS
  isplitl [Hr]; · iexact Hr
  iexact Hg

end Cert.KernelIdeal.Hand

end
-- ==== Proof.KI.Regs.lean ====
import proofs.«135132_j64836826300486_1_alg».proof.Proof.Gen.KernelIdeal.Launch
import proofs.«135132_j64836826300486_1_alg».proof.Proof.Gen.KernelIdeal.Skeleton
import proofs.«135132_j64836826300486_1_alg».proof.Proof.Gen.KernelIdeal.Points
import proofs.«135132_j64836826300486_1_alg».proof.Proof.Gen.KernelIdeal.Regions
import proofs.«135132_j64836826300486_1_alg».proof.Proof.KI.Dat0
import proofs.«135132_j64836826300486_1_alg».proof.Proof.KI.Dat1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between @main's items -/

/-- The first call's entry contents (after the host operations that scale the two clouds), read at the TensorCore's references. -/
abbrev U1 (c : Dev nD) (b : Ref sig .tc) : Buf (Elt F) ((c : Thread nD τ).loc b) := Gen.V1 m c b

/-- At the first call's exit: its arrays at what the pipeline leaves, every other buffer as entered. -/
def W2 (c : Dev nD) : Valuation τ sig (Elt F) :=
  Pipeline.withArrays spec0 c (Gen.V1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w

/-- What the first call leaves, as the unknown the generated valuations are written over. -/
def outsA : Gen.Outs (F := F) := fun _ r c => W2 m c r

/-- The second call's entry contents: the first call's output array replaced, read at the TensorCore's references. -/
abbrev U2 (c : Dev nD) (b : Ref sig .tc) : Buf (Elt F) ((c : Thread nD τ).loc b) := Gen.V2 m (outsA m) c b

/-- At the second call's exit. -/
def W4 (c : Dev nD) : Valuation τ sig (Elt F) :=
  Pipeline.withArrays spec1 c (Gen.V2 m (outsA m) c) fun w => (dat1 (U2 m) c).arrAt w cfg1.N
theorem W4_arr (c : Dev nD) (w : Fin cfg1.W) :
    W4 m c (Proc.devRef .tc (Pipeline.arrRef spec1 w)) = (dat1 (U2 m) c).arrAt w cfg1.N := by
  unfold W4; exact Pipeline.withArrays_arr spec1 launch1.win.arr_inj c _ _ w

/-- What the two calls leave in the arrays they may change. -/
def outs : Gen.Outs (F := F) := fun J r c => match J with
  | 2 => W2 m c r
  | _ => W4 m c r

theorem V2_outs (c : Dev nD) : Gen.V2 m (outs m) c = Gen.V2 m (outsA m) c := rfl

/-- The contents after the first call, read at the TensorCore's references. -/
abbrev X2 (c : Dev nD) (b : Ref sig .tc) : Buf (Elt F) ((c : Thread nD τ).loc b) := Gen.V2 m (outs m) c b
/-- The contents after the second call, read at the TensorCore's references. -/
abbrev X3 (c : Dev nD) (b : Ref sig .tc) : Buf (Elt F) ((c : Thread nD τ).loc b) := Gen.V3 m (outs m) c b

/-- After the first call each of its arrays holds what the pipeline leaves: an input what it held, the output its write-backs. -/
theorem hF0 (c : Dev nD) (w : Fin cfg0.W) : (dat0 (U1 m) c).arrAt w cfg0.N = X2 m c (Pipeline.arrRef spec0 w) := by
  match w with
  | ⟨0, _⟩ => exact ((dat0 (U1 m) c).arrAt_in 0 rfl _).trans ((A_eq0 (U1 m) c 0).trans (Gen.V2_of m (outs m) c main_v1 (by decide)).symm)
  | ⟨1, _⟩ => exact ((dat0 (U1 m) c).arrAt_in 1 rfl _).trans ((A_eq0 (U1 m) c 1).trans (Gen.V2_of m (outs m) c main_v3 (by decide)).symm)
  | ⟨2, _⟩ =>
    show _ = Function.update (Gen.V1 m c) (Proc.devRef .tc main_v4) (W2 m c main_v4) (Proc.devRef .tc main_v4)
    rw [Function.update_self]; exact (W2_arr m c 2).symm
/-- Every other buffer is as the call found it. -/
theorem hrest0 (c : Dev nD) : ∀ b, b ∉ Finset.univ.image (Pipeline.arrRef spec0) → X2 m c b = U1 m c b :=
  fun b hb => Gen.V2_of m (outs m) c b (by
    intro h; rw [List.mem_singleton] at h; subst h
    exact hb (Finset.mem_image.mpr ⟨2, Finset.mem_univ _, rfl⟩))
theorem hF1 (c : Dev nD) (w : Fin cfg1.W) : (dat1 (U2 m) c).arrAt w cfg1.N = X3 m c (Pipeline.arrRef spec1 w) := by
  match w with
  | ⟨0, _⟩ => exact ((dat1 (U2 m) c).arrAt_in 0 rfl _).trans ((A_eq1 (U2 m) c 0).trans (Gen.V3_of m (outs m) c main_v3 (by decide)).symm)
  | ⟨1, _⟩ => exact ((dat1 (U2 m) c).arrAt_in 1 rfl _).trans ((A_eq1 (U2 m) c 1).trans (Gen.V3_of m (outs m) c main_v1 (by decide)).symm)
  | ⟨2, _⟩ =>
    show _ = Function.update (Gen.V2 m (outs m) c) (Proc.devRef .tc main_v5) (W4 m c main_v5) (Proc.devRef .tc main_v5)
    rw [Function.update_self]; exact (W4_arr m c 2).symm
theorem hrest1 (c : Dev nD) : ∀ b, b ∉ Finset.univ.image (Pipeline.arrRef spec1) → X3 m c b = U2 m c b :=
  fun b hb => Gen.V3_of m (outs m) c b (by
    intro h; rw [List.mem_singleton] at h; subst h
    exact hb (Finset.mem_image.mpr ⟨2, Finset.mem_univ _, rfl⟩))

/-! ## The proof data family and what rides beside the buffers -/

/-- Every pipeline's proof data, each at its call's entry contents. -/
def pdats : (p : Fin 2) → (c : Dev nD) → Dat τ (Elt F) Unit ℕ (UR sig nD τ) ℕ (cfgs p) c
  | ⟨0, _⟩ => fun c => dat0 (U1 m) c
  | ⟨1, _⟩ => fun c => dat1 (U2 m) c

/-- No core owes another anything: no level is assigned. -/
abbrev Lnone : GSem nD τ sig → Finset Unit := fun _ => ∅
abbrev lvnone : GSem nD τ sig → Unit → ℕ := fun _ _ => 0

/-- What rides beside the buffers through every item: the generator register at some state, and nothing owed. -/
abbrev Rst (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- The first call as a segment of @main: entered with every unscoped buffer at `Gen.V1 m`, left with the call's output
    array at what its write-backs leave and every other unscoped buffer untouched. Its arrays are split out of the
    unscoped buffers at the entry and put back at the exit; the generator register goes into the invariant and comes
    back; the call owes nothing and has no semaphore of its own. -/
def reg0 : RegionSeg (pcfgs (F := F)) Gen.adm (pdats m) () defs₀ Variants.none Lnone lvnone 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ Lnone lvnone 0 fun _ _ => rfl
  pre c := iprop(StableHlo.held (c : Thread nD τ) (Pipeline.ucRefs τ sig) (Gen.V1 m c) ∗ Rst c)
  post c := iprop(StableHlo.held (c : Thread nD τ) (Pipeline.ucRefs τ sig) (Gen.V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second call as a segment of @main: entered with every unscoped buffer at `Gen.V2 m (outs m)`, left with the call's output
    array at what its write-backs leave and every other unscoped buffer untouched. Its arrays are split out of the
    unscoped buffers at the entry and put back at the exit; the generator register goes into the invariant and comes
    back; the call owes nothing and has no semaphore of its own. -/
def reg1 : RegionSeg (pcfgs (F := F)) Gen.adm (pdats m) () defs₀ Variants.none Lnone lvnone 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ Lnone lvnone 1 fun _ _ => rfl
  pre c := iprop(StableHlo.held (c : Thread nD τ) (Pipeline.ucRefs τ sig) (Gen.V2 m (outs m) c) ∗ Rst c)
  post c := iprop(StableHlo.held (c : Thread nD τ) (Pipeline.ucRefs τ sig) (Gen.V3 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none, V2_outs m c]
    have hsplit := Pipeline.arrays_of_unscopedBufs (p := 1) (pcfgs (F := F)) Gen.adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (U2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U2 m c) (X3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Frame.lean ====
import proofs.«135132_j64836826300486_1_alg».proof.Proof.Gen.KernelIdeal.Launch
import proofs.«135132_j64836826300486_1_alg».proof.Proof.Gen.KernelIdeal.Skeleton
import proofs.«135132_j64836826300486_1_alg».proof.Proof.Gen.KernelIdeal.Points
import proofs.«135132_j64836826300486_1_alg».proof.Proof.KI.Regs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost element is the pipeline library's own, and leaves nothing over. -/
theorem launch_elt :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ fun _ : Dev nD => (BI.emp : sProp 𝕄)) := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro

/-- What the launch deals each core, without the buffers, makes what rides beside them: the generator register and nothing owed. -/
theorem launch_rest :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lnone lvnone)
      ⊢ (|={Set.univ}=> bigSep Finset.univ (fun c : Dev nD => Rst (F := F) c) : sProp 𝕄) := by
  refine Pipeline.initEach Lnone lvnone fun c => ?_
  iintro ⟨⟨-, HO, -, Hp, -⟩, -⟩
  imodintro
  isplitl [Hp]; · iexists _; iexact Hp
  iexists ∅; iexact HO

/-- At the end the core owes nothing. -/
theorem rest_owes (c : Dev nD) : Rst (F := F) c ⊢ (iprop(∃ W, owes (c : Thread nD τ) (0 : CellTallies nD τ sig Unit) W) : sProp 𝕄) := by
  iintro ⟨-, HO⟩; iexact HO

set_option backward.isDefEq.respectTransparency.types false in
/-- THE FRAME: from any memory with zero counters every weakly fair execution of @main terminates, nothing faulting, and
    the two argument arrays end as launched: the conditional frame of the program's two calls, at the two calls' records. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m emb₁ () Variants.none Lnone lvnone (fun _ _ => rfl) ρ (outs m) (pdats m)
    (0 : Dev nD → CellTallies nD τ sig Unit) (fun _ => (BI.emp : sProp 𝕄))
    (initOf (Pipeline.cells cfgs cellOf_inj) (Pipeline.launchToks cfgs cellOf_inj)) launch_elt
    (fun _ c => Rst c) (launch_rest ρ) rest_owes
    (reg0 m) (fun _ => .rfl) (fun _ => .rfl) (reg1 m) (fun _ => .rfl) (fun _ => .rfl)

end Cert.KernelIdeal.Hand

end
-- ==== Proof.KI.RunValue.lean ====
import proofs.«135132_j64836826300486_1_alg».proof.Proof.Gen.KernelIdeal.Launch
import proofs.«135132_j64836826300486_1_alg».proof.Proof.Gen.KernelIdeal.Skeleton
import proofs.«135132_j64836826300486_1_alg».proof.Proof.Gen.KernelIdeal.Points
import proofs.«135132_j64836826300486_1_alg».proof.Proof.KI.Frame
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- THE RUN, with the result named: from any memory with zero counters every weakly fair execution of @main terminates,
    the result buffer ends at what the last host stretch computes from the two calls' output arrays, and the two
    argument arrays end as launched. The launch over @main's four items — host stretch, call, call, host stretch — with the
    last thread state read against the final memory at the result and at the arguments. -/
theorem run_value : θ_run defs (onTc (τ := τ) (main (F := F))) ⟨m, fun _ => 0, ρ⟩ (fun r => ∀ c : Dev nD,
      r.2.mem ((c.tc : Thread nD τ).loc main_v15) = Gen.V4 m (outs m) c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) Gen.adm (pdats m) () cellOf_inj emb₁ defs₀ Variants.none Lnone lvnone m ρ main
    (Gen.segs m (outs m) Variants.none Lnone lvnone (fun _ c => Rst c) () (pdats m) (reg0 m) (reg1 m))
    (fun c Q => by
      rewrite [main_chain c, Seg.run_eq_chain,
        show (Gen.segs m (outs m) Variants.none Lnone lvnone (fun _ c => Rst c) () (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide)
    (0 : Dev nD → CellTallies nD τ sig Unit) (fun _ _ => rfl) (fun _ => (BI.emp : sProp 𝕄))
    (initOf (Pipeline.cells cfgs cellOf_inj) (Pipeline.launchToks cfgs cellOf_inj)) launch_elt
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V4 m (outs m) c))
    (hch := fun c => ⟨.rfl, .rfl, .rfl, .rfl, sep_mono .rfl (rest_owes c)⟩)
    (hinit := ?_) (QY := fun c s => s.mem ((c.tc : Thread nD τ).loc main_v15) = Gen.V4 m (outs m) c main_v15
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  · -- the launch: the unscoped buffers are held at the launch contents; the rest makes what rides beside them
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    have hrest := launch_rest (F := F) ρ
    iintro ⟨H, Hla⟩
    ihave H' := hsplit $$ H
    icases H' with ⟨Hh, Hr⟩
    imod hrest $$ [Hr Hla] with HE
    · isplitl [Hr]; · iexact Hr
      iexact Hla
    imodintro
    rw [bigSep_sep' Finset.univ (fun c : Dev nD => StableHlo.held (c : Thread nD τ) (Pipeline.ucRefs τ sig) (Gen.V0 m c)) (fun c : Dev nD => Rst (F := F) c)]
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (Gen.V4 m (outs m) c) s') $$ [Hh HSI]
    · isplitl [Hh] <;> iassumption
    icases Hr with ⟨%h, HSI⟩
    imodintro
    isplitr
    · ipureintro
      exact ⟨h (Proc.devRef .tc main_v15) (Finset.mem_filter.mpr ⟨StableHlo.devRef_mem_tcRefs main_v15, by decide⟩),
        (h (Proc.devRef .tc main_arg0) (Finset.mem_filter.mpr ⟨StableHlo.devRef_mem_tcRefs main_arg0, by decide⟩)).trans (Gen.V4_main_arg0 m (outs m) c),
        (h (Proc.devRef .tc main_arg1) (Finset.mem_filter.mpr ⟨StableHlo.devRef_mem_tcRefs main_arg1, by decide⟩)).trans (Gen.V4_main_arg1 m (outs m) c)⟩
    · iexact HSI

end Cert.KernelIdeal.Hand

end
-- ==== Proof.KI.Tail.lean ====
import proofs.«135132_j64836826300486_1_alg».proof.Proof.KI.Regs
import proofs.«135132_j64836826300486_1_alg».proof.Proof.RefValue
import Idealize.ShloMosaic.Lib.StableHlo.Run

/-!
# The host operations around the two calls, read as values

Before the calls the two clouds are scaled by one; after them the two distance arrays go through the tail both
programs share.
-/

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable {F : FTy → Type} [FloatOps F]
variable (m : (ℓ : Loc nD τ sig) → Buf (Elt F) ℓ)

/-- The first call's first operand is the first argument scaled by one, as the reference scales it. -/
theorem U1_v1 (c : Dev nD) :
    (U1 m c main_v1 : (⟨S4x8192x3, .f32⟩ : BufTy).Contents (Elt F))
      = Cert.ReferenceIdeal.Read.val_main_v1 (F := F) (m ((c.tc : Thread nD τ).loc main_arg0)) := by
  show StableHlo.after hostOps0 (Gen.V0 m c) (Proc.devRef .tc main_v1) = _
  after_results
  unfold Cert.ReferenceIdeal.Read.val_main_v1 Cert.ReferenceIdeal.Read.val_main_v0 Cert.ReferenceIdeal.Read.val_main_cst
  rfl

/-- Its second operand is the second argument scaled by one. -/
theorem U1_v3 (c : Dev nD) :
    (U1 m c main_v3 : (⟨S4x8192x3, .f32⟩ : BufTy).Contents (Elt F))
      = Cert.ReferenceIdeal.Read.val_main_v3 (F := F) (m ((c.tc : Thread nD τ).loc main_arg1)) := by
  show StableHlo.after hostOps0 (Gen.V0 m c) (Proc.devRef .tc main_v3) = _
  after_results
  unfold Cert.ReferenceIdeal.Read.val_main_v3 Cert.ReferenceIdeal.Read.val_main_v2 Cert.ReferenceIdeal.Read.val_main_cst_0
  rfl

/-- The second call finds the two scaled clouds as the first did. -/
theorem U2_v1 (c : Dev nD) : U2 m c main_v1 = U1 m c main_v1 :=
  Gen.V2_of m (outsA m) c main_v1 (by decide)
theorem U2_v3 (c : Dev nD) : U2 m c main_v3 = U1 m c main_v3 :=
  Gen.V2_of m (outsA m) c main_v3 (by decide)

/-- After both calls the first output array holds what the first call's write-backs left, -/
theorem X3_v4 (c : Dev nD) : X3 m c main_v4 = (dat0 (U1 m) c).arrAt 2 cfg0.N := by
  refine (Gen.V3_of m (outs m) c main_v4 (by decide)).trans ?_
  show Function.update (Gen.V1 m c) (Proc.devRef .tc main_v4) (W2 m c main_v4) (Proc.devRef .tc main_v4) = _
  rw [Function.update_self]; exact W2_arr m c 2
/-- and the second what the second call's left. -/
theorem X3_v5 (c : Dev nD) : X3 m c main_v5 = (dat1 (U2 m) c).arrAt 2 cfg1.N := by
  show Function.update (Gen.V2 m (outs m) c) (Proc.devRef .tc main_v5) (W4 m c main_v5) (Proc.devRef .tc main_v5) = _
  rw [Function.update_self]; exact W4_arr m c 2

/-- The result buffer at the end is the shared tail of the two output arrays. -/
theorem V4_v15 (c : Dev nD) :
    (Gen.V4 m (outs m) c main_v15 : (⟨S1, .f32⟩ : BufTy).Contents (Elt F))
      = Cert.RefValue.tail (F := F) (X3 m c main_v4) (X3 m c main_v5) := by
  show StableHlo.after hostOps2 (Gen.V3 m (outs m) c) (Proc.devRef .tc main_v15)
    = Cert.RefValue.tail (F := F) (Gen.V3 m (outs m) c (Proc.devRef .tc main_v4)) (Gen.V3 m (outs m) c (Proc.devRef .tc main_v5))
  after_results
  generalize Gen.V3 m (outs m) c (Proc.devRef .tc main_v4) = d1
  generalize Gen.V3 m (outs m) c (Proc.devRef .tc main_v5) = d2
  unfold Cert.RefValue.tail
  rfl

end Cert.KernelIdeal.Hand

end
-- ==== Proof.KI.Step0.lean ====
import proofs.«135132_j64836826300486_1_alg».proof.Proof.KI.Body0
import proofs.«135132_j64836826300486_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

/-!
# One grid point's update of the running minimum, read at an element

Over the extended reals the update takes the running minimum at row `r` of batch element `b` to its minimum with the
least clamped squared distance from the query block's row `r` to the `512` rows of the key block.
-/

noncomputable section

namespace Cert.KernelIdeal.Hand

open Cert.KernelIdeal Cert.KernelIdeal.Gen
open Idealize.ShloMosaic Idealize.ShloMosaic.ValueIdx

/-- The clamped squared distance between row `r` of the query block and row `l` of the key block, in batch element `b`. -/
def dtile (q k : Vec Ideal S4x512x3 .f32) (b : Fin 4) (r l : Fin 512) : EReal :=
  max ((q (ix3 b r 0) * q (ix3 b r 0) + q (ix3 b r 1) * q (ix3 b r 1) + q (ix3 b r 2) * q (ix3 b r 2))
      + (k (ix3 b l 0) * k (ix3 b l 0) + k (ix3 b l 1) * k (ix3 b l 1) + k (ix3 b l 2) * k (ix3 b l 2))
      - Cert.Spec.two * (q (ix3 b r 0) * k (ix3 b l 0) + q (ix3 b r 1) * k (ix3 b l 1) + q (ix3 b r 2) * k (ix3 b l 2))) Cert.Spec.zero

/-! ## The layout operations of the body, read at coordinates -/

section Layout
variable {α : Type}

/-- A column `[4, 512, 1]` spread along a new last axis reads, at `(b, r, l)`, the column's entry `(b, r, 0)`. -/
theorem spreadCol_apply (v : S4x512x1.Idx → α) (h : S4x512x1.Broadcasts S4x512x512) (b : Fin 4) (r l : Fin 512) :
    broadcastTo S4x512x512 v h (ix3 b r l) = v (ix3 b r (0 : Fin 1)) :=
  broadcastTo_apply v h (ix3 b r l) (ix3 b r (0 : Fin 1)) fun ax =>
    match ax with
    | ⟨0, _⟩ => rfl
    | ⟨1, _⟩ => rfl
    | ⟨2, _⟩ => rfl

/-- A row `[4, 1, 512]` spread along the middle axis reads, at `(b, r, l)`, the row's entry `(b, 0, l)`. -/
theorem spreadRow_apply (v : S4x1x512.Idx → α) (h : S4x1x512.Broadcasts S4x512x512) (b : Fin 4) (r l : Fin 512) :
    broadcastTo S4x512x512 v h (ix3 b r l) = v (ix3 b (0 : Fin 1) l) :=
  broadcastTo_apply v h (ix3 b r l) (ix3 b (0 : Fin 1) l) fun ax =>
    match ax with
    | ⟨0, _⟩ => rfl
    | ⟨1, _⟩ => rfl
    | ⟨2, _⟩ => rfl

/-- A `[4, 512]` block viewed as a column `[4, 512, 1]` reads, at `(b, r, u)`, the block at `(b, r)`: the two
    row-major positions are `512 b + r`. -/
theorem addCol_apply (x : S4x512.Idx → α) (h : S4x512.ShapeCasts S4x512x1) (b : Fin 4) (r : Fin 512) (u : Fin 1) :
    shapeCast S4x512x1 x h (ix3 b r u) = x (ix2 b r) :=
  shapeCast_apply x h _ _ (by
    rw [Shape.rowMajor_val_three, Shape.rowMajor_val_two]
    show b.val * 512 + r.val = (b.val * 512 + r.val) * 1 + u.val
    omega)

/-- A `[4, 512]` block viewed as a row `[4, 1, 512]` reads, at `(b, u, l)`, the block at `(b, l)`. -/
theorem addRow_apply (x : S4x512.Idx → α) (h : S4x512.ShapeCasts S4x1x512) (b : Fin 4) (u : Fin 1) (l : Fin 512) :
    shapeCast S4x1x512 x h (ix3 b u l) = x (ix2 b l) :=
  shapeCast_apply x h _ _ (by
    rw [Shape.rowMajor_val_three, Shape.rowMajor_val_two]
    show b.val * 512 + l.val = (b.val * 1 + u.val) * 512 + l.val
    omega)

/-- A column `[4, 512, 1]` viewed as a `[4, 512]` block reads, at `(b, r)`, the column at `(b, r, 0)`. -/
theorem dropCol_apply (x : S4x512x1.Idx → α) (h : S4x512x1.ShapeCasts S4x512) (b : Fin 4) (r : Fin 512) :
    shapeCast S4x512 x h (ix2 b r) = x (ix3 b r (0 : Fin 1)) :=
  shapeCast_apply x h _ _ (by
    rw [Shape.rowMajor_val_three, Shape.rowMajor_val_two]
    show (b.val * 512 + r.val) * 1 + 0 = b.val * 512 + r.val
    omega)

/-- The width-one cut of a `[4, 512, 3]` block at offset `o` of the last axis reads, at `(b, r, u)`, the block's
    coordinate `o` of row `r`. -/
theorem sliceCoord_apply (o : Nat) (x : S4x512x3.Idx → α) (h : S4x512x3.Slices ![0, 0, o] S4x512x1)
    (b : Fin 4) (r : Fin 512) (u : Fin 1) (k : Fin 3) (hk : k.val = o) :
    extractStridedSlice S4x512x1 ![0, 0, o] x h (ix3 b r u) = x (ix3 b r k) :=
  extractStridedSlice_apply _ x h _ _ fun ax => by
    match ax with
    | ⟨0, _⟩ => exact (Nat.zero_add _).symm
    | ⟨1, _⟩ => exact (Nat.zero_add _).symm
    | ⟨2, _⟩ =>
      show k.val = o + u.val
      omega

end Layout

/-! ## The coordinates of a row

Each of the six `[4, 512]` blocks the body cuts out of the query and key blocks holds one coordinate of every row. -/

/-- The width-one cut at offset `o`, viewed as a `[4, 512]` block, holds coordinate `o` of each row. -/
theorem coord_apply (o : Nat) (x : Vec Ideal S4x512x3 .f32) (hs : S4x512x3.Slices ![0, 0, o] S4x512x1)
    (hc : S4x512x1.ShapeCasts S4x512) (hi : S4x512x3.ShapeCasts S4x512x3) (b : Fin 4) (r : Fin 512) (c : Fin 3) (hk : c.val = o) :
    shapeCast S4x512 (extractStridedSlice S4x512x1 ![0, 0, o] (shapeCast S4x512x3 x hi) hs) hc (ix2 b r) = x (ix3 b r c) :=
  (dropCol_apply _ hc b r).trans ((sliceCoord_apply o _ hs b r 0 c hk).trans (congrFun (shapeCast_self x hi) _))

theorem pay5_apply (q : Vec Ideal S4x512x3 .f32) (b : Fin 4) (r : Fin 512) :
    k0_pay5 (F := Ideal) q (ix2 b r) = q (ix3 b r 0) := by
  unfold k0_pay5 k0_pay3; exact coord_apply 0 q _ _ _ b r 0 rfl
theorem pay6_apply (q : Vec Ideal S4x512x3 .f32) (b : Fin 4) (r : Fin 512) :
    k0_pay6 (F := Ideal) q (ix2 b r) = q (ix3 b r 1) := by
  unfold k0_pay6 k0_pay3; exact coord_apply 1 q _ _ _ b r 1 rfl
theorem pay7_apply (q : Vec Ideal S4x512x3 .f32) (b : Fin 4) (r : Fin 512) :
    k0_pay7 (F := Ideal) q (ix2 b r) = q (ix3 b r 2) := by
  unfold k0_pay7 k0_pay3; exact coord_apply 2 q _ _ _ b r 2 rfl
theorem pay8_apply (k : Vec Ideal S4x512x3 .f32) (b : Fin 4) (l : Fin 512) :
    k0_pay8 (F := Ideal) k (ix2 b l) = k (ix3 b l 0) := by
  unfold k0_pay8 k0_pay4; exact coord_apply 0 k _ _ _ b l 0 rfl
theorem pay9_apply (k : Vec Ideal S4x512x3 .f32) (b : Fin 4) (l : Fin 512) :
    k0_pay9 (F := Ideal) k (ix2 b l) = k (ix3 b l 1) := by
  unfold k0_pay9 k0_pay4; exact coord_apply 1 k _ _ _ b l 1 rfl
theorem pay10_apply (k : Vec Ideal S4x512x3 .f32) (b : Fin 4) (l : Fin 512) :
    k0_pay10 (F := Ideal) k (ix2 b l) = k (ix3 b l 2) := by
  unfold k0_pay10 k0_pay4; exact coord_apply 2 k _ _ _ b l 2 rfl

/-! ## The three terms of the expanded squared distance -/

/-- A `[4, 512]` block stood up as a column and spread over the lanes reads its entry of row `r` at every lane. -/
theorem colSpread_apply (x : FVec Ideal S4x512 .f32) (hc : S4x512.ShapeCasts S4x512x1) (hb : S4x512x1.Broadcasts S4x512x512)
    (b : Fin 4) (r l : Fin 512) :
    broadcastTo S4x512x512 (shapeCast S4x512x1 x hc) hb (ix3 b r l) = x (ix2 b r) :=
  (spreadCol_apply _ hb b r l).trans (addCol_apply x hc b r 0)

/-- A `[4, 512]` block laid down as a row and spread over the rows reads its entry of lane `l` at every row. -/
theorem rowSpread_apply (x : FVec Ideal S4x512 .f32) (hc : S4x512.ShapeCasts S4x1x512) (hb : S4x1x512.Broadcasts S4x512x512)
    (b : Fin 4) (r l : Fin 512) :
    broadcastTo S4x512x512 (shapeCast S4x1x512 x hc) hb (ix3 b r l) = x (ix2 b l) :=
  (spreadRow_apply _ hb b r l).trans (addRow_apply x hc b 0 l)

/-- The query rows' squared norms, spread over the lanes. -/
theorem pay13_apply (q : Vec Ideal S4x512x3 .f32) (b : Fin 4) (r l : Fin 512) :
    k0_pay13 (F := Ideal) q (ix3 b r l)
      = q (ix3 b r 0) * q (ix3 b r 0) + q (ix3 b r 1) * q (ix3 b r 1) + q (ix3 b r 2) * q (ix3 b r 2) := by
  unfold k0_pay13
  refine (colSpread_apply _ _ _ b r l).trans ?_
  simp only [addf_apply, mulf_apply, pay5_apply, pay6_apply, pay7_apply]

/-- The key rows' squared norms, as a row over the lanes. -/
theorem pay12_apply (k : Vec Ideal S4x512x3 .f32) (b : Fin 4) (u : Fin 1) (l : Fin 512) :
    k0_pay12 (F := Ideal) k (ix3 b u l)
      = k (ix3 b l 0) * k (ix3 b l 0) + k (ix3 b l 1) * k (ix3 b l 1) + k (ix3 b l 2) * k (ix3 b l 2) := by
  unfold k0_pay12
  refine (addRow_apply _ _ b u l).trans ?_
  simp only [addf_apply, mulf_apply, pay8_apply, pay9_apply, pay10_apply]

/-- The inner products of the query rows with the key rows. -/
theorem pay11_apply (q k : Vec Ideal S4x512x3 .f32) (b : Fin 4) (r l : Fin 512) :
    k0_pay11 (F := Ideal) q k (ix3 b r l)
      = q (ix3 b r 0) * k (ix3 b l 0) + q (ix3 b r 1) * k (ix3 b l 1) + q (ix3 b r 2) * k (ix3 b l 2) := by
  unfold k0_pay11
  simp only [addf_apply, mulf_apply, colSpread_apply, rowSpread_apply, pay5_apply, pay6_apply, pay7_apply,
    pay8_apply, pay9_apply, pay10_apply]

/-! ## The minimum over the lanes -/

/-- A minimum reduction over one axis, read over the extended reals: the fold of `min` from the accumulator's value
    over that axis's coordinates. -/
theorem minReduce_lane {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The index over `(b, r)` with lane `l` put back on the reduced axis is `(b, r, l)`. -/
theorem lift_lane (h : S4x512x512.Reduces [2] S4x512) (b : Fin 4) (r l : Fin 512) :
    h.lift (ix2 b r) l = ix3 b r l :=
  funext fun a => Fin.ext (by match a with | ⟨0, _⟩ => rfl | ⟨1, _⟩ => rfl | ⟨2, _⟩ => rfl)

/-- The update's payload at an element, over any three operands: the old value's minimum with the least, over the
    lanes, of `max (n + m - 2 p) 0`. -/
theorem pay1_apply (v45 : FVec Ideal S4x512x512 .f32) (v47 : FVec Ideal S4x1x512 .f32) (v48 : FVec Ideal S4x512x512 .f32)
    (v57 : Vec Ideal S4x512 .f32) (b : Fin 4) (r : Fin 512) :
    k0_pay1 v45 v47 v48 v57 (ix2 b r)
      = min (v57 (ix2 b r)) ((Finset.univ : Finset (Fin 512)).fold min Cert.Spec.pinf fun l =>
          max (v48 (ix3 b r l) + v47 (ix3 b (0 : Fin 1) l) - Cert.Spec.two * v45 (ix3 b r l)) Cert.Spec.zero) := by
  unfold k0_pay1 Cert.Spec.pinf Cert.Spec.two Cert.Spec.zero
  refine (congrFun (shapeCast_self _ _) _).trans ?_
  refine (minimumf_apply _ _ _).trans ?_
  refine congrArg (min (v57 (ix2 b r))) ?_
  refine (minReduce_lane _ _ _ _ _ _).trans ?_
  refine congrArg (fun f => Finset.fold min (Ideal.ofBits .f32 0x7F800000#32) f (Finset.univ : Finset (Fin 512))) (funext fun (l : Fin 512) => ?_)
  refine (congrArg _ (lift_lane _ b r l)).trans ?_
  simp only [maximumf_apply, subf_apply, addf_apply, mulf_apply, broadcast_apply, spreadRow_apply, Ideal.ofBits_def]

/-- The block the running minimum restarts from holds `+∞` everywhere. -/
theorem pay2_apply (i : S4x512.Idx) : k0_pay2 (F := Ideal) i = Cert.Spec.pinf := by
  unfold k0_pay2 Cert.Spec.pinf
  exact congrFun (shapeCast_self _ _) i

/-- The update at an element: the minimum of the old value with the least clamped squared distance over the key block's rows. -/
theorem step0_apply (acc : Vec Ideal S4x512 .f32) (q k : Vec Ideal S4x512x3 .f32) (b : Fin 4) (r : Fin 512) :
    step0 (F := Ideal) acc q k (ix2 b r)
      = min (acc (ix2 b r)) ((Finset.univ : Finset (Fin 512)).fold min Cert.Spec.pinf fun l => dtile q k b r l) := by
  unfold step0
  refine (pay1_apply _ _ _ acc b r).trans ?_
  refine congrArg (min (acc (ix2 b r))) ?_
  refine congrArg (fun f => Finset.fold min Cert.Spec.pinf f (Finset.univ : Finset (Fin 512))) (funext fun l => ?_)
  rw [pay13_apply, pay12_apply, pay11_apply]
  rfl

end Cert.KernelIdeal.Hand

end
-- ==== Proof.KI.Value0.lean ====
import proofs.«135132_j64836826300486_1_alg».proof.Proof.KI.Dat0
import proofs.«135132_j64836826300486_1_alg».proof.Proof.KI.Step0
import proofs.«135132_j64836826300486_1_alg».proof.Proof.Spec
import Idealize.ShloMosaic.Lib.ValueIdx
import Idealize.ShloMosaic.Lib.Pipeline.Value
import Mathlib.Data.Finset.Fold
import Mathlib.Order.MinMax
import Mathlib.Order.Basic

/-!
# What the first call leaves in its output array: the nearest-neighbour distances

Point `t = 16·i + j` of the grid holds rows `512·i …` of the first operand as its query block and rows `512·j …` of the
second as its key block; after it the running minimum at row `r` is the least clamped squared distance from row
`512·i + r` to the second operand's rows below `512·(j + 1)`; the last column writes it back as rows `512·i …` of the output.

A minimum is carried by its lower bounds throughout: `x` is below a minimum folded from `+∞` iff it is below `+∞` and
below every term, so two such minima are equal as soon as they have the same lower bounds.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The index maps over the grid -/

/-- At point `t = 16·i + j` the first operand's block index is `(0, i, 0)`, the second's `(0, j, 0)` and the
    output's `(0, i)`. -/
theorem idx0 : ∀ t : Fin cfg0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0
    ∧ win0_2.index t (0 : Fin 2) = 0 ∧ win0_2.index t (1 : Fin 2) = t.val / 16 :=
  (by decide +kernel : ∀ t : Fin grid0.N, _)

variable (V : (c : Dev nD) → (b : Ref sig .tc) → Buf (Elt Ideal) ((c : Thread nD τ).loc b))

/-! ## The blocks, read in the arrays -/

/-- Row `r` of the query block of point `t` is row `512·(t / 16) + r` of the first operand. -/
theorem qblk0_apply (c : Dev nD) (t : Fin cfg0.N) (b : Fin 4) (r : Fin 512) (k : Fin 3) (n : Fin 8192)
    (hn : n.val = 512 * (t.val / 16) + r.val) :
    qblk0 V c t (ix3 b r k) = V c main_v1 (ix3 b n k) := by
  obtain ⟨e0, e1, e2, -⟩ := idx0 t
  show iblk0 V c 0 t (ix3 b r k) = _
  unfold iblk0
  rw [View.read_apply]
  show V c main_v1 _ = V c main_v1 _
  congr 1
  funext a
  apply Fin.ext
  match a with
  | ⟨0, _⟩ => show win0_0.index t (0 : Fin 3) * 4 + 1 * b.val = b.val; rw [e0]; omega
  | ⟨1, _⟩ => show win0_0.index t (1 : Fin 3) * 512 + 1 * r.val = n.val; rw [e1, hn]; omega
  | ⟨2, _⟩ => show win0_0.index t (2 : Fin 3) * 3 + 1 * k.val = k.val; rw [e2]; omega

/-- Row `l` of the key block of point `t` is row `512·(t % 16) + l` of the second operand. -/
theorem kblk0_apply (c : Dev nD) (t : Fin cfg0.N) (b : Fin 4) (l : Fin 512) (k : Fin 3) (m : Fin 8192)
    (hm : m.val = 512 * (t.val % 16) + l.val) :
    kblk0 V c t (ix3 b l k) = V c main_v3 (ix3 b m k) := by
  obtain ⟨-, -, -, e0, e1, e2, -⟩ := idx0 t
  show iblk0 V c 1 t (ix3 b l k) = _
  unfold iblk0
  rw [View.read_apply]
  show V c main_v3 _ = V c main_v3 _
  congr 1
  funext a
  apply Fin.ext
  match a with
  | ⟨0, _⟩ => show win0_1.index t (0 : Fin 3) * 4 + 1 * b.val = b.val; rw [e0]; omega
  | ⟨1, _⟩ => show win0_1.index t (1 : Fin 3) * 512 + 1 * l.val = m.val; rw [e1, hm]; omega
  | ⟨2, _⟩ => show win0_1.index t (2 : Fin 3) * 3 + 1 * k.val = k.val; rw [e2]; omega

/-- So the tile's clamped squared distance between its rows `r` and `l` is the one between rows `512·(t / 16) + r` and
    `512·(t % 16) + l` of the two operands. -/
theorem dtile_blk (c : Dev nD) (t : Fin cfg0.N) (b : Fin 4) (r l : Fin 512) (n m : Fin 8192)
    (hn : n.val = 512 * (t.val / 16) + r.val) (hm : m.val = 512 * (t.val % 16) + l.val) :
    dtile (qblk0 V c t) (kblk0 V c t) b r l = Cert.Spec.sqd (V c main_v1) (V c main_v3) b n m := by
  unfold dtile Cert.Spec.sqd Cert.Spec.nrm Cert.Spec.dot
  rw [qblk0_apply V c t b r 0 n hn, qblk0_apply V c t b r 1 n hn, qblk0_apply V c t b r 2 n hn,
    kblk0_apply V c t b l 0 m hm, kblk0_apply V c t b l 1 m hm, kblk0_apply V c t b l 2 m hm]

/-! ## Lower bounds -/

/-- A lower bound of the update at an element is one of the old value, of `+∞` and of the tile's 512 distances. -/
theorem le_step0 (acc : Vec Ideal S4x512 .f32) (q k : Vec Ideal S4x512x3 .f32) (b : Fin 4) (r : Fin 512) (x : EReal) :
    x ≤ step0 (F := Ideal) acc q k (ix2 b r)
      ↔ x ≤ acc (ix2 b r) ∧ x ≤ Cert.Spec.pinf ∧ ∀ l : Fin 512, x ≤ dtile q k b r l := by
  rw [step0_apply, le_min_iff, Finset.le_fold_min]
  exact and_congr_right fun _ => and_congr_right fun _ => ⟨fun h l => h l (Finset.mem_univ l), fun h l _ => h l⟩

/-- The rows below `512·(j + 1)` are those below `512·j` and the 512 rows `512·j + l`. -/
theorem forall_rows_succ (P : Fin 8192 → Prop) (j : ℕ) (hj : j < 16) :
    (∀ m : Fin 8192, m.val < 512 * (j + 1) → P m)
      ↔ (∀ m : Fin 8192, m.val < 512 * j → P m) ∧ ∀ l : Fin 512, P ⟨512 * j + l.val, by omega⟩ := by
  constructor
  · intro h
    exact ⟨fun m hm => h m (by omega), fun l => h _ (by show 512 * j + l.val < _; omega)⟩
  · rintro ⟨h1, h2⟩ m hm
    by_cases hlt : m.val < 512 * j
    · exact h1 m hlt
    · have h := h2 ⟨m.val - 512 * j, by omega⟩
      have e : (⟨512 * j + (m.val - 512 * j), by omega⟩ : Fin 8192) = m := Fin.ext (by show 512 * j + (m.val - 512 * j) = m.val; omega)
      rw [e] at h
      exact h

/-! ## The running minimum -/

/-- One point's update, given what the old value's lower bounds are: those of `+∞` and of the distances to the rows
    below `512·(t % 16)`; the new value's are those of `+∞` and of the distances to the rows below `512·(t % 16 + 1)`. -/
theorem le_step_rows (c : Dev nD) (t : Fin cfg0.N) (acc : Vec Ideal S4x512 .f32) (b : Fin 4) (r : Fin 512) (N : Fin 8192)
    (hN : N.val = 512 * (t.val / 16) + r.val) (x : EReal)
    (hacc : x ≤ acc (ix2 b r)
      ↔ x ≤ Cert.Spec.pinf ∧ ∀ m : Fin 8192, m.val < 512 * (t.val % 16) → x ≤ Cert.Spec.sqd (V c main_v1) (V c main_v3) b N m) :
    x ≤ step0 (F := Ideal) acc (qblk0 V c t) (kblk0 V c t) (ix2 b r)
      ↔ x ≤ Cert.Spec.pinf ∧ ∀ m : Fin 8192, m.val < 512 * (t.val % 16 + 1) → x ≤ Cert.Spec.sqd (V c main_v1) (V c main_v3) b N m := by
  have hj : t.val % 16 < 16 := Nat.mod_lt _ (by decide)
  rw [le_step0 acc (qblk0 V c t) (kblk0 V c t) b r x, hacc,
    forall_rows_succ (fun m => x ≤ Cert.Spec.sqd (V c main_v1) (V c main_v3) b N m) (t.val % 16) hj]
  have hd : ∀ l : Fin 512, dtile (qblk0 V c t) (kblk0 V c t) b r l
      = Cert.Spec.sqd (V c main_v1) (V c main_v3) b N ⟨512 * (t.val % 16) + l.val, by omega⟩ :=
    fun l => dtile_blk V c t b r l N _ hN rfl
  constructor
  · rintro ⟨⟨hp, h1⟩, -, h2⟩
    exact ⟨hp, h1, fun l => (hd l) ▸ h2 l⟩
  · rintro ⟨hp, h1, h2⟩
    exact ⟨⟨hp, h1⟩, hp, fun l => (hd l).symm ▸ h2 l⟩

/-- After point `n = 16·i + j` the running minimum at row `r` has the lower bounds of `+∞` and of the distances from row
    `512·i + r` of the first operand to the second operand's rows below `512·(j + 1)`: by induction on the point, a
    first column restarting from `+∞`. -/
theorem le_acc (c : Dev nD) : ∀ (n : ℕ) (hn : n < cfg0.N) (b : Fin 4) (r : Fin 512) (N : Fin 8192),
    N.val = 512 * (n / 16) + r.val → ∀ x : EReal,
    (x ≤ accAt0 V c n hn (ix2 b r)
      ↔ x ≤ Cert.Spec.pinf ∧ ∀ m : Fin 8192, m.val < 512 * (n % 16 + 1) → x ≤ Cert.Spec.sqd (V c main_v1) (V c main_v3) b N m) := by
  intro n
  induction n with
  | zero =>
    intro hn b r N hN x
    rw [accAt0_first V c ⟨0, hn⟩ rfl]
    refine le_step_rows V c ⟨0, hn⟩ _ b r N hN x ?_
    rw [pay2_apply]
    exact ⟨fun h => ⟨h, fun m hm => absurd hm (by show ¬ m.val < 512 * (0 % 16); omega)⟩, fun h => h.1⟩
  | succ n ih =>
    intro hn b r N hN x
    by_cases h0 : (n + 1) % 16 = 0
    · rw [accAt0_first V c ⟨n + 1, hn⟩ h0]
      refine le_step_rows V c ⟨n + 1, hn⟩ _ b r N hN x ?_
      rw [pay2_apply]
      exact ⟨fun h => ⟨h, fun m hm => absurd hm (by show ¬ m.val < 512 * ((n + 1) % 16); omega)⟩, fun h => h.1⟩
    · rw [accAt0_next V c ⟨n + 1, hn⟩ h0]
      refine le_step_rows V c ⟨n + 1, hn⟩ _ b r N hN x ?_
      have e1 : (n + 1) % 16 = n % 16 + 1 := by omega
      have e2 : n / 16 = (n + 1) / 16 := by omega
      show x ≤ accAt0 V c n _ (ix2 b r) ↔ x ≤ Cert.Spec.pinf ∧ ∀ m : Fin 8192, m.val < 512 * ((n + 1) % 16) → _
      rw [e1]
      exact ih (Nat.lt_of_succ_lt hn) b r N (by rw [e2]; exact hN) x

/-- At a last column the running minimum at row `r` is the nearest-neighbour distance of row `512·i + r`: the rows
    below `512·16` are all the rows. -/
theorem acc_last (c : Dev nD) (t : Fin cfg0.N) (h15 : t.val % 16 = 15) (b : Fin 4) (r : Fin 512) (N : Fin 8192)
    (hN : N.val = 512 * (t.val / 16) + r.val) :
    accAt0 V c t.val t.isLt (ix2 b r) = Cert.Spec.nnd (V c main_v1) (V c main_v3) (ix2 b N) := by
  refine eq_of_forall_le_iff fun x => ?_
  rw [le_acc V c t.val t.isLt b r N hN x, h15]
  unfold Cert.Spec.nnd
  rw [Finset.le_fold_min]
  exact and_congr_right fun _ => ⟨fun h m _ => h m (by omega), fun h m _ => h m (Finset.mem_univ m)⟩

/-! ## From the blocks to the array -/

/-- What a last column writes back is its block of the nearest-neighbour distances: rows `512·i …` of them. -/
theorem flushed0_eq (c : Dev nD) (t : Fin cfg0.N) (hf : (cfg0.win 2).flush t = true) :
    (dat0 (F := Ideal) V c).flushed 2 t
      = ((cfg0.win 2).blk t).view.read (Elt Ideal) (Cert.Spec.nnd (V c main_v1) (V c main_v3)) := by
  have h15 : t.val % 16 = 15 := (flush0_2 t).mp hf
  have hN : cfg0.N = 256 := N_0
  have ht : t.val < 256 := lt_of_lt_of_eq t.isLt hN
  obtain ⟨-, -, -, -, -, -, e0, e1⟩ := idx0 t
  show (cfg0.win 2).cut (cfg0.grid.coords t) ((dat0 (F := Ideal) V c).after 2 t) = _
  rw [after0_2]
  funext j
  obtain ⟨b, r, rfl⟩ : ∃ (b : Fin 4) (r : Fin 512), j = ix2 b r := ⟨j 0, j 1, eq_ix2 j⟩
  rw [View.read_apply]
  have hlt : 512 * (t.val / 16) + r.val < 8192 := by omega
  have he : ((cfg0.win 2).blk t).view.emb (ix2 b r) = ix2 b (⟨512 * (t.val / 16) + r.val, hlt⟩ : Fin 8192) := by
    funext a
    apply Fin.ext
    match a with
    | ⟨0, _⟩ => show win0_2.index t (0 : Fin 2) * 4 + 1 * b.val = b.val; rw [e0]; omega
    | ⟨1, _⟩ => show win0_2.index t (1 : Fin 2) * 512 + 1 * r.val = 512 * (t.val / 16) + r.val; rw [e1]; omega
  rw [he]
  exact acc_last V c t h15 b r _ rfl

/-- An index of the output array is in point `t`'s block iff each coordinate is in the block's range on its axis. -/
theorem mem_blk0_2 (t : Fin cfg0.N) (i : S4x8192.Idx) :
    i ∈ ((cfg0.win 2).blk t).view.set
      ↔ ∀ a : Fin 2, win0_2.index t a * S4x512.size a ≤ (i a).val ∧ (i a).val < win0_2.index t a * S4x512.size a + S4x512.size a := by
  show i ∈ ((View.whole main_v4).slice (win0_2.rect t)).set ↔ _
  rw [View.set_slice_whole, Rect.mem_set_unit]
  exact Iff.rfl

/-- Row `n` of the output is in the block the last column of grid row `n / 512` writes back. -/
theorem cover0_2 (i : S4x8192.Idx) :
    ∃ t : Fin cfg0.N, (cfg0.win 2).flush t = true ∧ i ∈ ((cfg0.win 2).blk t).view.set := by
  have hN : cfg0.N = 256 := N_0
  have hi0 : (i 0).val < 4 := (i 0).isLt
  have hi1 : (i 1).val < 8192 := (i 1).isLt
  obtain ⟨t, ht⟩ : ∃ t : Fin cfg0.N, t.val = 16 * ((i 1).val / 512) + 15 := ⟨⟨16 * ((i 1).val / 512) + 15, by rw [hN]; omega⟩, rfl⟩
  obtain ⟨-, -, -, -, -, -, e0, e1⟩ := idx0 t
  refine ⟨t, (flush0_2 t).mpr (by omega), ?_⟩
  rw [mem_blk0_2]
  intro a
  match a with
  | ⟨0, _⟩ =>
    show win0_2.index t (0 : Fin 2) * 4 ≤ (i 0).val ∧ (i 0).val < win0_2.index t (0 : Fin 2) * 4 + 4
    rw [e0]; omega
  | ⟨1, _⟩ =>
    show win0_2.index t (1 : Fin 2) * 512 ≤ (i 1).val ∧ (i 1).val < win0_2.index t (1 : Fin 2) * 512 + 512
    rw [e1]; omega

/-- After the run the output array holds, at every batch element and row, the squared distance from that row of the
    first operand to its nearest neighbour among the second operand's rows. -/
theorem out0_eq (V : (c : Dev nD) → (b : Ref sig .tc) → Buf (Elt Ideal) ((c : Thread nD τ).loc b)) (c : Dev nD) :
    (dat0 (F := Ideal) V c).arrAt 2 cfg0.N = Cert.Spec.nnd (V c main_v1) (V c main_v3) :=
  (dat0 (F := Ideal) V c).arrAt_eq_of_cover 2 (Cert.Spec.nnd (V c main_v1) (V c main_v3))
    (fun t hf => flushed0_eq V c t hf) cover0_2

end Cert.KernelIdeal.Hand

end
-- ==== Proof.KI.Step1.lean ====
import proofs.«135132_j64836826300486_1_alg».proof.Proof.KI.Body1
import proofs.«135132_j64836826300486_1_alg».proof.Proof.KI.Step0

/-!
# The second call's update is the first's

The two calls run the same kernel function on exchanged operands: their payloads are the same terms.
-/

noncomputable section

namespace Cert.KernelIdeal.Hand

open Cert.KernelIdeal Cert.KernelIdeal.Gen
open Idealize.ShloMosaic Idealize.ShloMosaic.ValueIdx

/-- The block the running minimum restarts from holds `+∞` everywhere. -/
theorem pay2_apply1 (i : S4x512.Idx) : k1_pay2 (F := Ideal) i = Cert.Spec.pinf := pay2_apply i

/-- The update at an element: the minimum of the old value with the least clamped squared distance over the key block's rows. -/
theorem step1_apply (acc : Vec Ideal S4x512 .f32) (q k : Vec Ideal S4x512x3 .f32) (b : Fin 4) (r : Fin 512) :
    step1 (F := Ideal) acc q k (ix2 b r)
      = min (acc (ix2 b r)) ((Finset.univ : Finset (Fin 512)).fold min Cert.Spec.pinf fun l => dtile q k b r l) :=
  step0_apply acc q k b r

end Cert.KernelIdeal.Hand

end
-- ==== Proof.KI.Value1.lean ====
import proofs.«135132_j64836826300486_1_alg».proof.Proof.KI.Dat1
import proofs.«135132_j64836826300486_1_alg».proof.Proof.KI.Step1
import proofs.«135132_j64836826300486_1_alg».proof.Proof.Spec
import Idealize.ShloMosaic.Lib.ValueIdx
import Idealize.ShloMosaic.Lib.Pipeline.Value
import Mathlib.Data.Finset.Fold
import Mathlib.Order.MinMax
import Mathlib.Order.Basic

/-!
# What the first call leaves in its output array: the nearest-neighbour distances

Point `t = 16·i + j` of the grid holds rows `512·i …` of the first operand as its query block and rows `512·j …` of the
second as its key block; after it the running minimum at row `r` is the least clamped squared distance from row
`512·i + r` to the second operand's rows below `512·(j + 1)`; the last column writes it back as rows `512·i …` of the output.

A minimum is carried by its lower bounds throughout: `x` is below a minimum folded from `+∞` iff it is below `+∞` and
below every term, so two such minima are equal as soon as they have the same lower bounds.
-/

set_option maxRecDepth 16384

noncomputable section

namespace Cert.KernelIdeal.Hand.R1

open Cert.KernelIdeal Cert.KernelIdeal.Gen
open Idealize.ShloMosaic Idealize.ShloMosaic.TcCoe Idealize.ShloMosaic.ValueIdx
open Idealize.ShloMosaic.Pipeline (Dat)

/-! ## The index maps over the grid -/

/-- At point `t = 16·i + j` the first operand's block index is `(0, i, 0)`, the second's `(0, j, 0)` and the
    output's `(0, i)`. -/
theorem idx0 : ∀ t : Fin cfg1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 2) = 0 ∧ win1_2.index t (1 : Fin 2) = t.val / 16 :=
  (by decide +kernel : ∀ t : Fin grid1.N, _)

variable (V : (c : Dev nD) → (b : Ref sig .tc) → Buf (Elt Ideal) ((c : Thread nD τ).loc b))

/-! ## The blocks, read in the arrays -/

/-- Row `r` of the query block of point `t` is row `512·(t / 16) + r` of the first operand. -/
theorem qblk0_apply (c : Dev nD) (t : Fin cfg1.N) (b : Fin 4) (r : Fin 512) (k : Fin 3) (n : Fin 8192)
    (hn : n.val = 512 * (t.val / 16) + r.val) :
    qblk1 V c t (ix3 b r k) = V c main_v3 (ix3 b n k) := by
  obtain ⟨e0, e1, e2, -⟩ := idx0 t
  show iblk1 V c 0 t (ix3 b r k) = _
  unfold iblk1
  rw [View.read_apply]
  show V c main_v3 _ = V c main_v3 _
  congr 1
  funext a
  apply Fin.ext
  match a with
  | ⟨0, _⟩ => show win1_0.index t (0 : Fin 3) * 4 + 1 * b.val = b.val; rw [e0]; omega
  | ⟨1, _⟩ => show win1_0.index t (1 : Fin 3) * 512 + 1 * r.val = n.val; rw [e1, hn]; omega
  | ⟨2, _⟩ => show win1_0.index t (2 : Fin 3) * 3 + 1 * k.val = k.val; rw [e2]; omega

/-- Row `l` of the key block of point `t` is row `512·(t % 16) + l` of the second operand. -/
theorem kblk0_apply (c : Dev nD) (t : Fin cfg1.N) (b : Fin 4) (l : Fin 512) (k : Fin 3) (m : Fin 8192)
    (hm : m.val = 512 * (t.val % 16) + l.val) :
    kblk1 V c t (ix3 b l k) = V c main_v1 (ix3 b m k) := by
  obtain ⟨-, -, -, e0, e1, e2, -⟩ := idx0 t
  show iblk1 V c 1 t (ix3 b l k) = _
  unfold iblk1
  rw [View.read_apply]
  show V c main_v1 _ = V c main_v1 _
  congr 1
  funext a
  apply Fin.ext
  match a with
  | ⟨0, _⟩ => show win1_1.index t (0 : Fin 3) * 4 + 1 * b.val = b.val; rw [e0]; omega
  | ⟨1, _⟩ => show win1_1.index t (1 : Fin 3) * 512 + 1 * l.val = m.val; rw [e1, hm]; omega
  | ⟨2, _⟩ => show win1_1.index t (2 : Fin 3) * 3 + 1 * k.val = k.val; rw [e2]; omega

/-- So the tile's clamped squared distance between its rows `r` and `l` is the one between rows `512·(t / 16) + r` and
    `512·(t % 16) + l` of the two operands. -/
theorem dtile_blk (c : Dev nD) (t : Fin cfg1.N) (b : Fin 4) (r l : Fin 512) (n m : Fin 8192)
    (hn : n.val = 512 * (t.val / 16) + r.val) (hm : m.val = 512 * (t.val % 16) + l.val) :
    dtile (qblk1 V c t) (kblk1 V c t) b r l = Cert.Spec.sqd (V c main_v3) (V c main_v1) b n m := by
  unfold dtile Cert.Spec.sqd Cert.Spec.nrm Cert.Spec.dot
  rw [qblk0_apply V c t b r 0 n hn, qblk0_apply V c t b r 1 n hn, qblk0_apply V c t b r 2 n hn,
    kblk0_apply V c t b l 0 m hm, kblk0_apply V c t b l 1 m hm, kblk0_apply V c t b l 2 m hm]

/-! ## Lower bounds -/

/-- A lower bound of the update at an element is one of the old value, of `+∞` and of the tile's 512 distances. -/
theorem le_step0 (acc : Vec Ideal S4x512 .f32) (q k : Vec Ideal S4x512x3 .f32) (b : Fin 4) (r : Fin 512) (x : EReal) :
    x ≤ step1 (F := Ideal) acc q k (ix2 b r)
      ↔ x ≤ acc (ix2 b r) ∧ x ≤ Cert.Spec.pinf ∧ ∀ l : Fin 512, x ≤ dtile q k b r l := by
  rw [step1_apply, le_min_iff, Finset.le_fold_min]
  exact and_congr_right fun _ => and_congr_right fun _ => ⟨fun h l => h l (Finset.mem_univ l), fun h l _ => h l⟩

/-- The rows below `512·(j + 1)` are those below `512·j` and the 512 rows `512·j + l`. -/
theorem forall_rows_succ (P : Fin 8192 → Prop) (j : ℕ) (hj : j < 16) :
    (∀ m : Fin 8192, m.val < 512 * (j + 1) → P m)
      ↔ (∀ m : Fin 8192, m.val < 512 * j → P m) ∧ ∀ l : Fin 512, P ⟨512 * j + l.val, by omega⟩ := by
  constructor
  · intro h
    exact ⟨fun m hm => h m (by omega), fun l => h _ (by show 512 * j + l.val < _; omega)⟩
  · rintro ⟨h1, h2⟩ m hm
    by_cases hlt : m.val < 512 * j
    · exact h1 m hlt
    · have h := h2 ⟨m.val - 512 * j, by omega⟩
      have e : (⟨512 * j + (m.val - 512 * j), by omega⟩ : Fin 8192) = m := Fin.ext (by show 512 * j + (m.val - 512 * j) = m.val; omega)
      rw [e] at h
      exact h

/-! ## The running minimum -/

/-- One point's update, given what the old value's lower bounds are: those of `+∞` and of the distances to the rows
    below `512·(t % 16)`; the new value's are those of `+∞` and of the distances to the rows below `512·(t % 16 + 1)`. -/
theorem le_step_rows (c : Dev nD) (t : Fin cfg1.N) (acc : Vec Ideal S4x512 .f32) (b : Fin 4) (r : Fin 512) (N : Fin 8192)
    (hN : N.val = 512 * (t.val / 16) + r.val) (x : EReal)
    (hacc : x ≤ acc (ix2 b r)
      ↔ x ≤ Cert.Spec.pinf ∧ ∀ m : Fin 8192, m.val < 512 * (t.val % 16) → x ≤ Cert.Spec.sqd (V c main_v3) (V c main_v1) b N m) :
    x ≤ step1 (F := Ideal) acc (qblk1 V c t) (kblk1 V c t) (ix2 b r)
      ↔ x ≤ Cert.Spec.pinf ∧ ∀ m : Fin 8192, m.val < 512 * (t.val % 16 + 1) → x ≤ Cert.Spec.sqd (V c main_v3) (V c main_v1) b N m := by
  have hj : t.val % 16 < 16 := Nat.mod_lt _ (by decide)
  rw [le_step0 acc (qblk1 V c t) (kblk1 V c t) b r x, hacc,
    forall_rows_succ (fun m => x ≤ Cert.Spec.sqd (V c main_v3) (V c main_v1) b N m) (t.val % 16) hj]
  have hd : ∀ l : Fin 512, dtile (qblk1 V c t) (kblk1 V c t) b r l
      = Cert.Spec.sqd (V c main_v3) (V c main_v1) b N ⟨512 * (t.val % 16) + l.val, by omega⟩ :=
    fun l => dtile_blk V c t b r l N _ hN rfl
  constructor
  · rintro ⟨⟨hp, h1⟩, -, h2⟩
    exact ⟨hp, h1, fun l => (hd l) ▸ h2 l⟩
  · rintro ⟨hp, h1, h2⟩
    exact ⟨⟨hp, h1⟩, hp, fun l => (hd l).symm ▸ h2 l⟩

/-- After point `n = 16·i + j` the running minimum at row `r` has the lower bounds of `+∞` and of the distances from row
    `512·i + r` of the first operand to the second operand's rows below `512·(j + 1)`: by induction on the point, a
    first column restarting from `+∞`. -/
theorem le_acc (c : Dev nD) : ∀ (n : ℕ) (hn : n < cfg1.N) (b : Fin 4) (r : Fin 512) (N : Fin 8192),
    N.val = 512 * (n / 16) + r.val → ∀ x : EReal,
    (x ≤ accAt1 V c n hn (ix2 b r)
      ↔ x ≤ Cert.Spec.pinf ∧ ∀ m : Fin 8192, m.val < 512 * (n % 16 + 1) → x ≤ Cert.Spec.sqd (V c main_v3) (V c main_v1) b N m) := by
  intro n
  induction n with
  | zero =>
    intro hn b r N hN x
    rw [accAt1_first V c ⟨0, hn⟩ rfl]
    refine le_step_rows V c ⟨0, hn⟩ _ b r N hN x ?_
    rw [pay2_apply1]
    exact ⟨fun h => ⟨h, fun m hm => absurd hm (by show ¬ m.val < 512 * (0 % 16); omega)⟩, fun h => h.1⟩
  | succ n ih =>
    intro hn b r N hN x
    by_cases h0 : (n + 1) % 16 = 0
    · rw [accAt1_first V c ⟨n + 1, hn⟩ h0]
      refine le_step_rows V c ⟨n + 1, hn⟩ _ b r N hN x ?_
      rw [pay2_apply1]
      exact ⟨fun h => ⟨h, fun m hm => absurd hm (by show ¬ m.val < 512 * ((n + 1) % 16); omega)⟩, fun h => h.1⟩
    · rw [accAt1_next V c ⟨n + 1, hn⟩ h0]
      refine le_step_rows V c ⟨n + 1, hn⟩ _ b r N hN x ?_
      have e1 : (n + 1) % 16 = n % 16 + 1 := by omega
      have e2 : n / 16 = (n + 1) / 16 := by omega
      show x ≤ accAt1 V c n _ (ix2 b r) ↔ x ≤ Cert.Spec.pinf ∧ ∀ m : Fin 8192, m.val < 512 * ((n + 1) % 16) → _
      rw [e1]
      exact ih (Nat.lt_of_succ_lt hn) b r N (by rw [e2]; exact hN) x

/-- At a last column the running minimum at row `r` is the nearest-neighbour distance of row `512·i + r`: the rows
    below `512·16` are all the rows. -/
theorem acc_last (c : Dev nD) (t : Fin cfg1.N) (h15 : t.val % 16 = 15) (b : Fin 4) (r : Fin 512) (N : Fin 8192)
    (hN : N.val = 512 * (t.val / 16) + r.val) :
    accAt1 V c t.val t.isLt (ix2 b r) = Cert.Spec.nnd (V c main_v3) (V c main_v1) (ix2 b N) := by
  refine eq_of_forall_le_iff fun x => ?_
  rw [le_acc V c t.val t.isLt b r N hN x, h15]
  unfold Cert.Spec.nnd
  rw [Finset.le_fold_min]
  exact and_congr_right fun _ => ⟨fun h m _ => h m (by omega), fun h m _ => h m (Finset.mem_univ m)⟩

/-! ## From the blocks to the array -/

/-- What a last column writes back is its block of the nearest-neighbour distances: rows `512·i …` of them. -/
theorem flushed0_eq (c : Dev nD) (t : Fin cfg1.N) (hf : (cfg1.win 2).flush t = true) :
    (dat1 (F := Ideal) V c).flushed 2 t
      = ((cfg1.win 2).blk t).view.read (Elt Ideal) (Cert.Spec.nnd (V c main_v3) (V c main_v1)) := by
  have h15 : t.val % 16 = 15 := (flush1_2 t).mp hf
  have hN : cfg1.N = 256 := N_1
  have ht : t.val < 256 := lt_of_lt_of_eq t.isLt hN
  obtain ⟨-, -, -, -, -, -, e0, e1⟩ := idx0 t
  show (cfg1.win 2).cut (cfg1.grid.coords t) ((dat1 (F := Ideal) V c).after 2 t) = _
  rw [after1_2]
  funext j
  obtain ⟨b, r, rfl⟩ : ∃ (b : Fin 4) (r : Fin 512), j = ix2 b r := ⟨j 0, j 1, eq_ix2 j⟩
  rw [View.read_apply]
  have hlt : 512 * (t.val / 16) + r.val < 8192 := by omega
  have he : ((cfg1.win 2).blk t).view.emb (ix2 b r) = ix2 b (⟨512 * (t.val / 16) + r.val, hlt⟩ : Fin 8192) := by
    funext a
    apply Fin.ext
    match a with
    | ⟨0, _⟩ => show win1_2.index t (0 : Fin 2) * 4 + 1 * b.val = b.val; rw [e0]; omega
    | ⟨1, _⟩ => show win1_2.index t (1 : Fin 2) * 512 + 1 * r.val = 512 * (t.val / 16) + r.val; rw [e1]; omega
  rw [he]
  exact acc_last V c t h15 b r _ rfl

/-- An index of the output array is in point `t`'s block iff each coordinate is in the block's range on its axis. -/
theorem mem_blk0_2 (t : Fin cfg1.N) (i : S4x8192.Idx) :
    i ∈ ((cfg1.win 2).blk t).view.set
      ↔ ∀ a : Fin 2, win1_2.index t a * S4x512.size a ≤ (i a).val ∧ (i a).val < win1_2.index t a * S4x512.size a + S4x512.size a := by
  show i ∈ ((View.whole main_v5).slice (win1_2.rect t)).set ↔ _
  rw [View.set_slice_whole, Rect.mem_set_unit]
  exact Iff.rfl

/-- Row `n` of the output is in the block the last column of grid row `n / 512` writes back. -/
theorem cover0_2 (i : S4x8192.Idx) :
    ∃ t : Fin cfg1.N, (cfg1.win 2).flush t = true ∧ i ∈ ((cfg1.win 2).blk t).view.set := by
  have hN : cfg1.N = 256 := N_1
  have hi0 : (i 0).val < 4 := (i 0).isLt
  have hi1 : (i 1).val < 8192 := (i 1).isLt
  obtain ⟨t, ht⟩ : ∃ t : Fin cfg1.N, t.val = 16 * ((i 1).val / 512) + 15 := ⟨⟨16 * ((i 1).val / 512) + 15, by rw [hN]; omega⟩, rfl⟩
  obtain ⟨-, -, -, -, -, -, e0, e1⟩ := idx0 t
  refine ⟨t, (flush1_2 t).mpr (by omega), ?_⟩
  rw [mem_blk0_2]
  intro a
  match a with
  | ⟨0, _⟩ =>
    show win1_2.index t (0 : Fin 2) * 4 ≤ (i 0).val ∧ (i 0).val < win1_2.index t (0 : Fin 2) * 4 + 4
    rw [e0]; omega
  | ⟨1, _⟩ =>
    show win1_2.index t (1 : Fin 2) * 512 ≤ (i 1).val ∧ (i 1).val < win1_2.index t (1 : Fin 2) * 512 + 512
    rw [e1]; omega

/-- After the run the output array holds, at every batch element and row, the squared distance from that row of the
    first operand to its nearest neighbour among the second operand's rows. -/
theorem out1_eq (V : (c : Dev nD) → (b : Ref sig .tc) → Buf (Elt Ideal) ((c : Thread nD τ).loc b)) (c : Dev nD) :
    (dat1 (F := Ideal) V c).arrAt 2 cfg1.N = Cert.Spec.nnd (V c main_v3) (V c main_v1) :=
  (dat1 (F := Ideal) V c).arrAt_eq_of_cover 2 (Cert.Spec.nnd (V c main_v3) (V c main_v1))
    (fun t hf => flushed0_eq V c t hf) cover0_2

end Cert.KernelIdeal.Hand.R1

end
-- ==== Proof.lean ====
/-
  The Chamfer nearest-neighbour loss: the kernel's two tiled passes against the reference's full distance matrix.

  Both programs scale the two clouds by one, compute from each point of one cloud the clamped squared distance
  `max (‖p‖² + ‖q‖² − 2·⟨p, q⟩) 0` to every point of the other and take the least, once from each side, and push the two
  arrays of least distances through the same tail (a mean over the points, the two means added, a mean over the batch).
  The kernel finds each least distance tile by tile: a running minimum restarted at `+∞` on the first column of the grid,
  lowered by each tile's row-wise minimum, and written out on the last column; the reference folds `min` over the whole
  row (first pass) or column (second pass) of the distance matrix. Over the extended reals a minimum may be taken in any
  grouping and order, sums of three terms and products commute, and no other law is used: the precondition is never opened.

  The frames: each call's body is run case by case (first, middle and last column), the running minimum carried between
  grid points by the region's invariant; the program's two calls and two host stretches are chained by the conditional frame.
-/
import proofs.«135132_j64836826300486_1_alg».proof.Defs
import proofs.«135132_j64836826300486_1_alg».proof.Proof.Gen.Kernel
import proofs.«135132_j64836826300486_1_alg».proof.Proof.Gen.KernelIdeal
import proofs.«135132_j64836826300486_1_alg».proof.Proof.Gen.ReferenceIdeal
import proofs.«135132_j64836826300486_1_alg».proof.Proof.Gen.ReferenceIdeal.Run
import proofs.«135132_j64836826300486_1_alg».proof.Proof.Gen.ReferenceIdeal.Read
import proofs.«135132_j64836826300486_1_alg».proof.Proof.Gen.Pre_finite_inputs
import proofs.«135132_j64836826300486_1_alg».proof.Proof.Spec
import proofs.«135132_j64836826300486_1_alg».proof.Proof.RefValue
import proofs.«135132_j64836826300486_1_alg».proof.Proof.KB.Frame
import proofs.«135132_j64836826300486_1_alg».proof.Proof.KI.Frame
import proofs.«135132_j64836826300486_1_alg».proof.Proof.KI.RunValue
import proofs.«135132_j64836826300486_1_alg».proof.Proof.KI.Tail
import proofs.«135132_j64836826300486_1_alg».proof.Proof.KI.Value0
import proofs.«135132_j64836826300486_1_alg».proof.Proof.KI.Value1
import Idealize.ShloMosaic.Adequacy
import Idealize.ShloMosaic.Init

noncomputable section

namespace Cert.Proof

open Idealize.ShloMosaic Idealize.ShloMosaic.TcCoe Idealize.SL.Sem

/-- The value both programs end with, from the two argument arrays. -/
def result (x0 x1 : (⟨Cert.ReferenceIdeal.S4x8192x3, .f32⟩ : BufTy).Contents (Elt Ideal)) :
    (⟨Cert.ReferenceIdeal.S1, .f32⟩ : BufTy).Contents (Elt Ideal) :=
  Cert.RefValue.tail (F := Ideal)
    (Cert.Spec.nnd (Cert.ReferenceIdeal.Read.val_main_v1 (F := Ideal) x0) (Cert.ReferenceIdeal.Read.val_main_v3 (F := Ideal) x1))
    (Cert.Spec.nnd' (Cert.ReferenceIdeal.Read.val_main_v1 (F := Ideal) x0) (Cert.ReferenceIdeal.Read.val_main_v3 (F := Ideal) x1))

open Cert.KernelIdeal Cert.KernelIdeal.Hand in
/-- The kernel's result buffer at the end is that value: the tail of the two calls' output arrays, each the
    nearest-neighbour distances of the scaled clouds, the second with the clouds exchanged. -/
theorem kernel_value (m : (ℓ : Loc Cert.KernelIdeal.nD Cert.KernelIdeal.τ Cert.KernelIdeal.sig) → Buf (Elt Ideal) ℓ) (c : Dev Cert.KernelIdeal.nD) :
    (Cert.KernelIdeal.Gen.V4 m (outs m) c Cert.KernelIdeal.main_v15 : (⟨Cert.ReferenceIdeal.S1, .f32⟩ : BufTy).Contents (Elt Ideal))
      = result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  unfold result
  rw [V4_v15, X3_v4, X3_v5, out0_eq, R1.out1_eq, U2_v1, U2_v3, U1_v1, U1_v3, Cert.Spec.nnd'_eq_nnd]

/-- The reference's result is that value. -/
theorem reference_value (x0 x1 : (⟨Cert.ReferenceIdeal.S4x8192x3, .f32⟩ : BufTy).Contents (Elt Ideal)) :
    Cert.ReferenceIdeal.Read.val_main_v30 (F := Ideal) x0 x1 = result x0 x1 := by
  unfold result
  rw [Cert.RefValue.v30_eq_tail, Cert.RefValue.v19_eq, Cert.RefValue.v20_eq]

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.Value.run (F := Ideal) m ρ),
  trivial,
  fun m ρ m' ρ' _ hagree =>
    ⟨fun c => result (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
      (θ_run Cert.KernelIdeal.defs _ _).mono (fun _ h c => ⟨(h c).1.trans (kernel_value m c), (h c).2⟩) (Cert.KernelIdeal.Hand.run_value (F := Ideal) m ρ),
      (θ_run Cert.ReferenceIdeal.defs _ _).mono (fun _ h c => ⟨by
          rw [(h c).1, Cert.ReferenceIdeal.Read.val_main_v30_eq, reference_value, (hagree c).1, (hagree c).2], (h c).2⟩)
        (Cert.ReferenceIdeal.Value.run (F := Ideal) m' ρ')⟩⟩

end Cert.Proof

end
